-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)) →
    ∃ (v0 : (c : Dev Cert.KernelIdeal.nD) → Buf (Elt Ideal) ((c.tc : Thread Cert.KernelIdeal.nD Cert.KernelIdeal.τ).loc Cert.KernelIdeal.main_v47)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v47) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v50) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S50000x64 : Shape := ⟨2, ![50000, 64]⟩
abbrev S2x800000 : Shape := ⟨2, ![2, 800000]⟩
abbrev S128x64 : Shape := ⟨2, ![128, 64]⟩
abbrev S64 : Shape := ⟨1, ![64]⟩
abbrev S_ : Shape := ⟨0, ![]⟩

class Facts : Prop where
  bcast_S_S50000x64 : S_.BroadcastsInDim S50000x64 (![] : Fin 0 → Fin S50000x64.rank)
  reducesTo_S50000x64_S_d0_1 : S50000x64.ReducesTo [0, 1] S_
  h_S_ : 0 < S_.numel
  bcast_S_S128x64 : S_.BroadcastsInDim S128x64 (![] : Fin 0 → Fin S128x64.rank)
  reducesTo_S128x64_S_d0_1 : S128x64.ReducesTo [0, 1] S_
  bcast_S_S64 : S_.BroadcastsInDim S64 (![] : Fin 0 → Fin S64.rank)
  reducesTo_S64_S_d0 : S64.ReducesTo [0] S_

variable [Facts]

def fn_part1 {F : FTy → Type} [FloatOps F] (main_arg5 : FVec F S64 .f32) (main_v13 : IVec S_ 1) (main_v16 : IVec S128x64 1) : IVec S_ 1 :=
  let main_c_5 : IVec S_ 1 := constantI S_ 1 1#1
  let main_v17 : IVec S_ 1 := (fun x v => Host.reduce IntOp.andi x v reducesTo_S128x64_S_d0_1 h_S_) main_v16 main_c_5
  let main_v18 : IVec S_ 1 := andi main_v13 main_v17
  let main_v19 : FVec F S64 .f32 := Host.absf main_arg5
  let main_cst_6 : FVec F S_ .f32 := constant S_ .f32 0x7F800000#32
  let main_v20 : FVec F S64 .f32 := broadcastInDim S64 ![] bcast_S_S64 main_cst_6
  let main_v21 : IVec S64 1 := cmpf .olt main_v19 main_v20
  let main_c_7 : IVec S_ 1 := constantI S_ 1 1#1
  let main_v22 : IVec S_ 1 := (fun x v => Host.reduce IntOp.andi x v reducesTo_S64_S_d0 h_S_) main_v21 main_c_7
  let main_v23 : IVec S_ 1 := andi main_v18 main_v22
  main_v23

def fn {F : FTy → Type} [FloatOps F] (main_arg0 : FVec F S50000x64 .f32) (main_arg1 : IVec S2x800000 32) (main_arg2 : FVec F S128x64 .f32) (main_arg3 : FVec F S64 .f32) (main_arg4 : FVec F S128x64 .f32) (main_arg5 : FVec F S64 .f32) : IVec S_ 1 :=
  let main_v0 : FVec F S50000x64 .f32 := Host.absf main_arg0
  let main_cst : FVec F S_ .f32 := constant S_ .f32 0x7F800000#32
  let main_v1 : FVec F S50000x64 .f32 := broadcastInDim S50000x64 ![] bcast_S_S50000x64 main_cst
  let main_v2 : IVec S50000x64 1 := cmpf .olt main_v0 main_v1
  let main_c : IVec S_ 1 := constantI S_ 1 1#1
  let main_v3 : IVec S_ 1 := (fun x v => Host.reduce IntOp.andi x v reducesTo_S50000x64_S_d0_1 h_S_) main_v2 main_c
  let main_v4 : FVec F S128x64 .f32 := Host.absf main_arg2
  let main_cst_0 : FVec F S_ .f32 := constant S_ .f32 0x7F800000#32
  let main_v5 : FVec F S128x64 .f32 := broadcastInDim S128x64 ![] bcast_S_S128x64 main_cst_0
  let main_v6 : IVec S128x64 1 := cmpf .olt main_v4 main_v5
  let main_c_1 : IVec S_ 1 := constantI S_ 1 1#1
  let main_v7 : IVec S_ 1 := (fun x v => Host.reduce IntOp.andi x v reducesTo_S128x64_S_d0_1 h_S_) main_v6 main_c_1
  let main_v8 : IVec S_ 1 := andi main_v3 main_v7
  let main_v9 : FVec F S64 .f32 := Host.absf main_arg3
  let main_cst_2 : FVec F S_ .f32 := constant S_ .f32 0x7F800000#32
  let main_v10 : FVec F S64 .f32 := broadcastInDim S64 ![] bcast_S_S64 main_cst_2
  let main_v11 : IVec S64 1 := cmpf .olt main_v9 main_v10
  let main_c_3 : IVec S_ 1 := constantI S_ 1 1#1
  let main_v12 : IVec S_ 1 := (fun x v => Host.reduce IntOp.andi x v reducesTo_S64_S_d0 h_S_) main_v11 main_c_3
  let main_v13 : IVec S_ 1 := andi main_v8 main_v12
  let main_v14 : FVec F S128x64 .f32 := Host.absf main_arg4
  let main_cst_4 : FVec F S_ .f32 := constant S_ .f32 0x7F800000#32
  let main_v15 : FVec F S128x64 .f32 := broadcastInDim S128x64 ![] bcast_S_S128x64 main_cst_4
  let main_v16 : IVec S128x64 1 := cmpf .olt main_v14 main_v15
  fn_part1 (F := F) main_arg5 main_v13 main_v16
-- ==== Kernel.lean ====
abbrev S50000x64 : Shape := ⟨2, ![50000, 64]⟩
abbrev S2x800000 : Shape := ⟨2, ![2, 800000]⟩
abbrev S128x64 : Shape := ⟨2, ![128, 64]⟩
abbrev S64 : Shape := ⟨1, ![64]⟩
abbrev S1x800000 : Shape := ⟨2, ![1, 800000]⟩
abbrev S800000 : Shape := ⟨1, ![800000]⟩
abbrev S_ : Shape := ⟨0, ![]⟩
abbrev S800000x1 : Shape := ⟨2, ![800000, 1]⟩
abbrev S800000x64 : Shape := ⟨2, ![800000, 64]⟩
abbrev S50000x1 : Shape := ⟨2, ![50000, 1]⟩
abbrev S64x64 : Shape := ⟨2, ![64, 64]⟩
abbrev S1x64 : Shape := ⟨2, ![1, 64]⟩
abbrev S5000x64 : Shape := ⟨2, ![5000, 64]⟩

abbrev nBuf : Space → Nat
  | .hbm => 66
  | .vmem => 18
  | .smem => 0
  | _ => 0

abbrev bufTy : (tb : Table) → Fin (tcTables nBuf tb) → BufTy
  | .hbm, ⟨0, _⟩ => ⟨S50000x64, .f32⟩
  | .hbm, ⟨1, _⟩ => ⟨S2x800000, .i32⟩
  | .hbm, ⟨2, _⟩ => ⟨S128x64, .f32⟩
  | .hbm, ⟨3, _⟩ => ⟨S64, .f32⟩
  | .hbm, ⟨4, _⟩ => ⟨S128x64, .f32⟩
  | .hbm, ⟨5, _⟩ => ⟨S64, .f32⟩
  | .hbm, ⟨6, _⟩ => ⟨S1x800000, .i32⟩
  | .hbm, ⟨7, _⟩ => ⟨S800000, .i32⟩
  | .hbm, ⟨8, _⟩ => ⟨S1x800000, .i32⟩
  | .hbm, ⟨9, _⟩ => ⟨S800000, .i32⟩
  | .hbm, ⟨10, _⟩ => ⟨S_, .i32⟩
  | .hbm, ⟨11, _⟩ => ⟨S800000, .i32⟩
  | .hbm, ⟨12, _⟩ => ⟨S800000, .i1⟩
  | .hbm, ⟨13, _⟩ => ⟨S_, .i32⟩
  | .hbm, ⟨14, _⟩ => ⟨S800000, .i32⟩
  | .hbm, ⟨15, _⟩ => ⟨S800000, .i32⟩
  | .hbm, ⟨16, _⟩ => ⟨S800000, .i32⟩
  | .hbm, ⟨17, _⟩ => ⟨S800000x1, .i32⟩
  | .hbm, ⟨18, _⟩ => ⟨S800000x64, .f32⟩
  | .hbm, ⟨19, _⟩ => ⟨S_, .f32⟩
  | .hbm, ⟨20, _⟩ => ⟨S50000x64, .f32⟩
  | .hbm, ⟨21, _⟩ => ⟨S800000x1, .i32⟩
  | .hbm, ⟨22, _⟩ => ⟨S50000x64, .f32⟩
  | .hbm, ⟨23, _⟩ => ⟨S_, .f32⟩
  | .hbm, ⟨24, _⟩ => ⟨S800000x1, .f32⟩
  | .hbm, ⟨25, _⟩ => ⟨S_, .f32⟩
  | .hbm, ⟨26, _⟩ => ⟨S50000x1, .f32⟩
  | .hbm, ⟨27, _⟩ => ⟨S800000x1, .i32⟩
  | .hbm, ⟨28, _⟩ => ⟨S50000x1, .f32⟩
  | .hbm, ⟨29, _⟩ => ⟨S_, .f32⟩
  | .hbm, ⟨30, _⟩ => ⟨S50000x1, .f32⟩
  | .hbm, ⟨31, _⟩ => ⟨S50000x1, .f32⟩
  | .hbm, ⟨32, _⟩ => ⟨S50000x64, .f32⟩
  | .hbm, ⟨33, _⟩ => ⟨S50000x64, .f32⟩
  | .hbm, ⟨34, _⟩ => ⟨S64x64, .f32⟩
  | .hbm, ⟨35, _⟩ => ⟨S64x64, .f32⟩
  | .hbm, ⟨36, _⟩ => ⟨S1x64, .f32⟩
  | .hbm, ⟨37, _⟩ => ⟨S50000x64, .f32⟩
  | .hbm, ⟨38, _⟩ => ⟨S_, .i32⟩
  | .hbm, ⟨39, _⟩ => ⟨S800000, .i32⟩
  | .hbm, ⟨40, _⟩ => ⟨S800000, .i1⟩
  | .hbm, ⟨41, _⟩ => ⟨S_, .i32⟩
  | .hbm, ⟨42, _⟩ => ⟨S800000, .i32⟩
  | .hbm, ⟨43, _⟩ => ⟨S800000, .i32⟩
  | .hbm, ⟨44, _⟩ => ⟨S800000, .i32⟩
  | .hbm, ⟨45, _⟩ => ⟨S800000x1, .i32⟩
  | .hbm, ⟨46, _⟩ => ⟨S800000x64, .f32⟩
  | .hbm, ⟨47, _⟩ => ⟨S_, .f32⟩
  | .hbm, ⟨48, _⟩ => ⟨S50000x64, .f32⟩
  | .hbm, ⟨49, _⟩ => ⟨S800000x1, .i32⟩
  | .hbm, ⟨50, _⟩ => ⟨S50000x64, .f32⟩
  | .hbm, ⟨51, _⟩ => ⟨S_, .f32⟩
  | .hbm, ⟨52, _⟩ => ⟨S800000x1, .f32⟩
  | .hbm, ⟨53, _⟩ => ⟨S_, .f32⟩
  | .hbm, ⟨54, _⟩ => ⟨S50000x1, .f32⟩
  | .hbm, ⟨55, _⟩ => ⟨S800000x1, .i32⟩
  | .hbm, ⟨56, _⟩ => ⟨S50000x1, .f32⟩
  | .hbm, ⟨57, _⟩ => ⟨S_, .f32⟩
  | .hbm, ⟨58, _⟩ => ⟨S50000x1, .f32⟩
  | .hbm, ⟨59, _⟩ => ⟨S50000x1, .f32⟩
  | .hbm, ⟨60, _⟩ => ⟨S50000x64, .f32⟩
  | .hbm, ⟨61, _⟩ => ⟨S50000x64, .f32⟩
  | .hbm, ⟨62, _⟩ => ⟨S64x64, .f32⟩
  | .hbm, ⟨63, _⟩ => ⟨S64x64, .f32⟩
  | .hbm, ⟨64, _⟩ => ⟨S1x64, .f32⟩
  | .hbm, ⟨65, _⟩ => ⟨S50000x64, .f32⟩
  | .local _ .vmem, ⟨0, _⟩ => ⟨S5000x64, .f32⟩
  | .local _ .vmem, ⟨1, _⟩ => ⟨S5000x64, .f32⟩
  | .local _ .vmem, ⟨2, _⟩ => ⟨S5000x64, .f32⟩
  | .local _ .vmem, ⟨3, _⟩ => ⟨S5000x64, .f32⟩
  | .local _ .vmem, ⟨4, _⟩ => ⟨S64x64, .f32⟩
  | .local _ .vmem, ⟨5, _⟩ => ⟨S64x64, .f32⟩
  | .local _ .vmem, ⟨6, _⟩ => ⟨S1x64, .f32⟩
  | .local _ .vmem, ⟨7, _⟩ => ⟨S5000x64, .f32⟩
  | .local _ .vmem, ⟨8, _⟩ => ⟨S5000x64, .f32⟩
  | .local _ .vmem, ⟨9, _⟩ => ⟨S5000x64, .f32⟩
  | .local _ .vmem, ⟨10, _⟩ => ⟨S5000x64, .f32⟩
  | .local _ .vmem, ⟨11, _⟩ => ⟨S5000x64, .f32⟩
  | .local _ .vmem, ⟨12, _⟩ => ⟨S5000x64, .f32⟩
  | .local _ .vmem, ⟨13, _⟩ => ⟨S64x64, .f32⟩
  | .local _ .vmem, ⟨14, _⟩ => ⟨S64x64, .f32⟩
  | .local _ .vmem, ⟨15, _⟩ => ⟨S1x64, .f32⟩
  | .local _ .vmem, ⟨16, _⟩ => ⟨S5000x64, .f32⟩
  | .local _ .vmem, ⟨17, _⟩ => ⟨S5000x64, .f32⟩
  | _, _ => ⟨S50000x64, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | _, _ => false

abbrev semScoped : Fin 0 → Bool
  | ⟨_, h⟩ => absurd h (Nat.not_lt_zero _)

abbrev dmaSemScoped : Fin 18 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | _ => false

abbrev sig : RefSig :=
  ofTc nBuf bufTy 0 18 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_c : Ref sig .tc := ⟨.hbm, 10, rfl⟩
abbrev main_v4 : Ref sig .tc := ⟨.hbm, 11, rfl⟩
abbrev main_v5 : Ref sig .tc := ⟨.hbm, 12, rfl⟩
abbrev main_c_0 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_cst : Ref sig .tc := ⟨.hbm, 19, rfl⟩
abbrev main_v11 : Ref sig .tc := ⟨.hbm, 20, rfl⟩
abbrev main_v12 : Ref sig .tc := ⟨.hbm, 21, rfl⟩
abbrev main_v13 : Ref sig .tc := ⟨.hbm, 22, rfl⟩
abbrev main_cst_1 : Ref sig .tc := ⟨.hbm, 23, rfl⟩
abbrev main_v14 : Ref sig .tc := ⟨.hbm, 24, rfl⟩
abbrev main_cst_2 : Ref sig .tc := ⟨.hbm, 25, rfl⟩
abbrev main_v15 : Ref sig .tc := ⟨.hbm, 26, rfl⟩
abbrev main_v16 : Ref sig .tc := ⟨.hbm, 27, rfl⟩
abbrev main_v17 : Ref sig .tc := ⟨.hbm, 28, rfl⟩
abbrev main_cst_3 : Ref sig .tc := ⟨.hbm, 29, rfl⟩
abbrev main_v18 : Ref sig .tc := ⟨.hbm, 30, rfl⟩
abbrev main_v19 : Ref sig .tc := ⟨.hbm, 31, rfl⟩
abbrev main_v20 : Ref sig .tc := ⟨.hbm, 32, rfl⟩
abbrev main_v21 : Ref sig .tc := ⟨.hbm, 33, rfl⟩
abbrev main_v22 : Ref sig .tc := ⟨.hbm, 34, rfl⟩
abbrev main_v23 : Ref sig .tc := ⟨.hbm, 35, rfl⟩
abbrev main_v24 : Ref sig .tc := ⟨.hbm, 36, rfl⟩
abbrev main_v25 : Ref sig .tc := ⟨.hbm, 37, rfl⟩
abbrev main_c_4 : Ref sig .tc := ⟨.hbm, 38, rfl⟩
abbrev main_v26 : Ref sig .tc := ⟨.hbm, 39, rfl⟩
abbrev main_v27 : Ref sig .tc := ⟨.hbm, 40, rfl⟩
abbrev main_c_5 : Ref sig .tc := ⟨.hbm, 41, rfl⟩
abbrev main_v28 : Ref sig .tc := ⟨.hbm, 42, rfl⟩
abbrev main_v29 : Ref sig .tc := ⟨.hbm, 43, rfl⟩
abbrev main_v30 : Ref sig .tc := ⟨.hbm, 44, rfl⟩
abbrev main_v31 : Ref sig .tc := ⟨.hbm, 45, rfl⟩
abbrev main_v32 : Ref sig .tc := ⟨.hbm, 46, rfl⟩
abbrev main_cst_6 : Ref sig .tc := ⟨.hbm, 47, rfl⟩
abbrev main_v33 : Ref sig .tc := ⟨.hbm, 48, rfl⟩
abbrev main_v34 : Ref sig .tc := ⟨.hbm, 49, rfl⟩
abbrev main_v35 : Ref sig .tc := ⟨.hbm, 50, rfl⟩
abbrev main_cst_7 : Ref sig .tc := ⟨.hbm, 51, rfl⟩
abbrev main_v36 : Ref sig .tc := ⟨.hbm, 52, rfl⟩
abbrev main_cst_8 : Ref sig .tc := ⟨.hbm, 53, rfl⟩
abbrev main_v37 : Ref sig .tc := ⟨.hbm, 54, rfl⟩
abbrev main_v38 : Ref sig .tc := ⟨.hbm, 55, rfl⟩
abbrev main_v39 : Ref sig .tc := ⟨.hbm, 56, rfl⟩
abbrev main_cst_9 : Ref sig .tc := ⟨.hbm, 57, rfl⟩
abbrev main_v40 : Ref sig .tc := ⟨.hbm, 58, rfl⟩
abbrev main_v41 : Ref sig .tc := ⟨.hbm, 59, rfl⟩
abbrev main_v42 : Ref sig .tc := ⟨.hbm, 60, rfl⟩
abbrev main_v43 : Ref sig .tc := ⟨.hbm, 61, rfl⟩
abbrev main_v44 : Ref sig .tc := ⟨.hbm, 62, rfl⟩
abbrev main_v45 : Ref sig .tc := ⟨.hbm, 63, rfl⟩
abbrev main_v46 : Ref sig .tc := ⟨.hbm, 64, rfl⟩
abbrev main_v47 : Ref sig .tc := ⟨.hbm, 65, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg5_0 : Ref sig .tc := ⟨.vmem, 7, rfl⟩
abbrev cc0_stg5_1 : Ref sig .tc := ⟨.vmem, 8, rfl⟩
abbrev cc1_stg0_0 : Ref sig .tc := ⟨.vmem, 9, rfl⟩
abbrev cc1_stg0_1 : Ref sig .tc := ⟨.vmem, 10, rfl⟩
abbrev cc1_stg1_0 : Ref sig .tc := ⟨.vmem, 11, rfl⟩
abbrev cc1_stg1_1 : Ref sig .tc := ⟨.vmem, 12, rfl⟩
abbrev cc1_stg2_0 : Ref sig .tc := ⟨.vmem, 13, rfl⟩
abbrev cc1_stg3_0 : Ref sig .tc := ⟨.vmem, 14, rfl⟩
abbrev cc1_stg4_0 : Ref sig .tc := ⟨.vmem, 15, rfl⟩
abbrev cc1_stg5_0 : Ref sig .tc := ⟨.vmem, 16, rfl⟩
abbrev cc1_stg5_1 : Ref sig .tc := ⟨.vmem, 17, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem4_0 : DmaSem sig := 6
abbrev cc0_sem5_0 : DmaSem sig := 7
abbrev cc0_sem5_1 : DmaSem sig := 8
abbrev cc1_sem0_0 : DmaSem sig := 9
abbrev cc1_sem0_1 : DmaSem sig := 10
abbrev cc1_sem1_0 : DmaSem sig := 11
abbrev cc1_sem1_1 : DmaSem sig := 12
abbrev cc1_sem2_0 : DmaSem sig := 13
abbrev cc1_sem3_0 : DmaSem sig := 14
abbrev cc1_sem4_0 : DmaSem sig := 15
abbrev cc1_sem5_0 : DmaSem sig := 16
abbrev cc1_sem5_1 : DmaSem sig := 17

abbrev nD : Nat := 1
abbrev τ : Topo := Topo.v7x

variable {F : FTy → Type} [FloatOps F]

abbrev grid0 : Pipeline.Grid := ⟨1, ![10], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S5000x64 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S5000x64 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S64x64 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S64x64 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S1x64 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 2 → Memref sig .tc .vmem S5000x64 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev grid1 : Pipeline.Grid := ⟨1, ![10], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_2 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_3 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_4 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_5 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S5000x64 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 2 → Memref sig .tc .vmem S5000x64 .f32 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true]

abbrev stage1_2 : Fin 1 → Memref sig .tc .vmem S64x64 .f32 := fun | 0 => Memref.whole cc1_stg2_0 | ⟨_ + 1, h⟩ => absurd h (Nat.not_lt.2 (Nat.le_add_left _ _))
abbrev sem1_2 : Fin 1 → DmaSem sig := fun | 0 => cc1_sem2_0 | ⟨_ + 1, h⟩ => absurd h (Nat.not_lt.2 (Nat.le_add_left _ _))
abbrev reads1_2 : Fin grid1.rank → Bool := ![false]

abbrev stage1_3 : Fin 1 → Memref sig .tc .vmem S64x64 .f32 := fun | 0 => Memref.whole cc1_stg3_0 | ⟨_ + 1, h⟩ => absurd h (Nat.not_lt.2 (Nat.le_add_left _ _))
abbrev sem1_3 : Fin 1 → DmaSem sig := fun | 0 => cc1_sem3_0 | ⟨_ + 1, h⟩ => absurd h (Nat.not_lt.2 (Nat.le_add_left _ _))
abbrev reads1_3 : Fin grid1.rank → Bool := ![false]

abbrev stage1_4 : Fin 1 → Memref sig .tc .vmem S1x64 .f32 := fun | 0 => Memref.whole cc1_stg4_0 | ⟨_ + 1, h⟩ => absurd h (Nat.not_lt.2 (Nat.le_add_left _ _))
abbrev sem1_4 : Fin 1 → DmaSem sig := fun | 0 => cc1_sem4_0 | ⟨_ + 1, h⟩ => absurd h (Nat.not_lt.2 (Nat.le_add_left _ _))
abbrev reads1_4 : Fin grid1.rank → Bool := ![false]

abbrev stage1_5 : Fin 2 → Memref sig .tc .vmem S5000x64 .f32 := fun | 0 => Memref.whole cc1_stg5_0 | 1 => Memref.whole cc1_stg5_1 | ⟨_ + 2, h⟩ => absurd h (Nat.not_lt.2 (Nat.le_add_left _ _))
abbrev sem1_5 : Fin 2 → DmaSem sig := fun | 0 => cc1_sem5_0 | 1 => cc1_sem5_1 | ⟨_ + 2, h⟩ => absurd h (Nat.not_lt.2 (Nat.le_add_left _ _))
abbrev reads1_5 : Fin grid1.rank → Bool := ![true]

class Facts₀ : Prop where
  slices_S2x800000_S1x800000_0_0 : S2x800000.Slices ![0, 0] S1x800000
  shapeCasts_S1x800000_S800000 : S1x800000.ShapeCasts S800000
  slices_S2x800000_S1x800000_1_0 : S2x800000.Slices ![1, 0] S1x800000
  bcast_S_S800000 : S_.BroadcastsInDim S800000 (![] : Fin 0 → Fin S800000.rank)
  bcast_S800000_S800000x1_0 : S800000.BroadcastsInDim S800000x1 (![0] : Fin 1 → Fin S800000x1.rank)
  bcast_S_S50000x64 : S_.BroadcastsInDim S50000x64 (![] : Fin 0 → Fin S50000x64.rank)
  bcast_S_S800000x1 : S_.BroadcastsInDim S800000x1 (![] : Fin 0 → Fin S800000x1.rank)
  bcast_S_S50000x1 : S_.BroadcastsInDim S50000x1 (![] : Fin 0 → Fin S50000x1.rank)
  bcast_S50000x1_S50000x64_0_1 : S50000x1.BroadcastsInDim S50000x64 (![0, 1] : Fin 2 → Fin S50000x64.rank)
  slices_S128x64_S64x64_0_0 : S128x64.Slices ![0, 0] S64x64
  slices_S128x64_S64x64_64_0 : S128x64.Slices ![64, 0] S64x64
  shapeCasts_S64_S1x64 : S64.ShapeCasts S1x64
  inb_S5000x64_S5000x64_0_0 : ∀ a, (![0, 0] : Fin 2 → Nat) a + S5000x64.size a ≤ S5000x64.size a
  h_S5000x64 : 0 < S5000x64.numel
  bitsLt_bf16_f32 : FTy.bits .bf16 < FTy.bits .f32
  shapeCasts_S5000x64_S5000x64 : S5000x64.ShapeCasts S5000x64
  inb_S64x64_S64x64_0_0 : ∀ a, (![0, 0] : Fin 2 → Nat) a + S64x64.size a ≤ S64x64.size a
  h_S64x64 : 0 < S64x64.numel
  shapeCasts_S64x64_S64x64 : S64x64.ShapeCasts S64x64
  inb_S1x64_S1x64_0_0 : ∀ a, (![0, 0] : Fin 2 → Nat) a + S1x64.size a ≤ S1x64.size a
  h_S1x64 : 0 < S1x64.numel
  shapeCasts_S1x64_S1x64 : S1x64.ShapeCasts S1x64
  broadcasts_S1x64_S5000x64 : S1x64.Broadcasts S5000x64
  gather_S50000x64_S800000x1_S800000x64_1_0_n_n_0_1_164_wf : GatherDims.WF S50000x64 S800000x1 S800000x64 [1] [0] [] [0] [] 1 ![1, 64]
  scatter_S50000x64_S800000x1_S800000x64_1_0_0_1_wf : ScatterDims.WF S50000x64 S800000x1 S800000x64 [1] [0] [0] 1
  scatter_S50000x1_S800000x1_S800000x1_1_0_0_1_wf : ScatterDims.WF S50000x1 S800000x1 S800000x1 [1] [0] [0] 1
  dot_S5000x64_S64x64_S5000x64_1_0_0_1_n_n_wf : DotDims.WF S5000x64 S64x64 S5000x64 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S5000x64.size a ≤ S50000x64.size a
  hwx0_0 : ∀ i : grid0.Coords, EltTy.bits .f32 = 32 ∨ (Rect.block (s := S50000x64) S5000x64.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S5000x64.size a ≤ S50000x64.size a
  hwx0_1 : ∀ i : grid0.Coords, EltTy.bits .f32 = 32 ∨ (Rect.block (s := S50000x64) S5000x64.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S64x64.size a ≤ S64x64.size a
  hwx0_2 : ∀ i : grid0.Coords, EltTy.bits .f32 = 32 ∨ (Rect.block (s := S64x64) S64x64.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S64x64.size a ≤ S64x64.size a
  hwx0_3 : ∀ i : grid0.Coords, EltTy.bits .f32 = 32 ∨ (Rect.block (s := S64x64) S64x64.size (cc0_transform_3 i) (hinb0_3 i)).WholeWords (EltTy.packing .f32)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S1x64.size a ≤ S1x64.size a
  hwx0_4 : ∀ i : grid0.Coords, EltTy.bits .f32 = 32 ∨ (Rect.block (s := S1x64) S1x64.size (cc0_transform_4 i) (hinb0_4 i)).WholeWords (EltTy.packing .f32)
  hstage0_5 : ∀ j, (stage0_5 j).IsWhole
  nbuf0_5 : grid0.bufCount reads0_5 false = 2
  hreads0_5 : ∀ i i' : grid0.Coords, (∀ a, reads0_5 a = true → i a = i' a) → cc0_transform_5 i = cc0_transform_5 i'
  hinb0_5 : ∀ (i : grid0.Coords) a, (cc0_transform_5 i a + 1) * S5000x64.size a ≤ S50000x64.size a
  hwx0_5 : ∀ i : grid0.Coords, EltTy.bits .f32 = 32 ∨ (Rect.block (s := S50000x64) S5000x64.size (cc0_transform_5 i) (hinb0_5 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S5000x64.size a ≤ S50000x64.size a
  hwx1_0 : ∀ i : grid1.Coords, EltTy.bits .f32 = 32 ∨ (Rect.block (s := S50000x64) S5000x64.size (cc1_transform_0 i) (hinb1_0 i)).WholeWords (EltTy.packing .f32)
  hstage1_1 : ∀ j, (stage1_1 j).IsWhole
  nbuf1_1 : grid1.bufCount reads1_1 false = 2
  hreads1_1 : ∀ i i' : grid1.Coords, (∀ a, reads1_1 a = true → i a = i' a) → cc1_transform_1 i = cc1_transform_1 i'
  hinb1_1 : ∀ (i : grid1.Coords) a, (cc1_transform_1 i a + 1) * S5000x64.size a ≤ S50000x64.size a
  hwx1_1 : ∀ i : grid1.Coords, EltTy.bits .f32 = 32 ∨ (Rect.block (s := S50000x64) S5000x64.size (cc1_transform_1 i) (hinb1_1 i)).WholeWords (EltTy.packing .f32)
  hstage1_2 : ∀ j, (stage1_2 j).IsWhole
  nbuf1_2 : grid1.bufCount reads1_2 true = 1
  hreads1_2 : ∀ i i' : grid1.Coords, (∀ a, reads1_2 a = true → i a = i' a) → cc1_transform_2 i = cc1_transform_2 i'
  hinb1_2 : ∀ (i : grid1.Coords) a, (cc1_transform_2 i a + 1) * S64x64.size a ≤ S64x64.size a
  hwx1_2 : ∀ i : grid1.Coords, EltTy.bits .f32 = 32 ∨ (Rect.block (s := S64x64) S64x64.size (cc1_transform_2 i) (hinb1_2 i)).WholeWords (EltTy.packing .f32)
  hstage1_3 : ∀ j, (stage1_3 j).IsWhole
  nbuf1_3 : grid1.bufCount reads1_3 true = 1
  hreads1_3 : ∀ i i' : grid1.Coords, (∀ a, reads1_3 a = true → i a = i' a) → cc1_transform_3 i = cc1_transform_3 i'
  hinb1_3 : ∀ (i : grid1.Coords) a, (cc1_transform_3 i a + 1) * S64x64.size a ≤ S64x64.size a
  hwx1_3 : ∀ i : grid1.Coords, EltTy.bits .f32 = 32 ∨ (Rect.block (s := S64x64) S64x64.size (cc1_transform_3 i) (hinb1_3 i)).WholeWords (EltTy.packing .f32)
  hstage1_4 : ∀ j, (stage1_4 j).IsWhole
  nbuf1_4 : grid1.bufCount reads1_4 true = 1
  hreads1_4 : ∀ i i' : grid1.Coords, (∀ a, reads1_4 a = true → i a = i' a) → cc1_transform_4 i = cc1_transform_4 i'
  hinb1_4 : ∀ (i : grid1.Coords) a, (cc1_transform_4 i a + 1) * S1x64.size a ≤ S1x64.size a
  hwx1_4 : ∀ i : grid1.Coords, EltTy.bits .f32 = 32 ∨ (Rect.block (s := S1x64) S1x64.size (cc1_transform_4 i) (hinb1_4 i)).WholeWords (EltTy.packing .f32)
  hstage1_5 : ∀ j, (stage1_5 j).IsWhole
  nbuf1_5 : grid1.bufCount reads1_5 false = 2
  hreads1_5 : ∀ i i' : grid1.Coords, (∀ a, reads1_5 a = true → i a = i' a) → cc1_transform_5 i = cc1_transform_5 i'
  hinb1_5 : ∀ (i : grid1.Coords) a, (cc1_transform_5 i a + 1) * S5000x64.size a ≤ S50000x64.size a
  hwx1_5 : ∀ i : grid1.Coords, EltTy.bits .f32 = 32 ∨ (Rect.block (s := S50000x64) S5000x64.size (cc1_transform_5 i) (hinb1_5 i)).WholeWords (EltTy.packing .f32)

variable [Facts₀]

def gather_S50000x64_S800000x1_S800000x64_1_0_n_n_0_1_164 : GatherDims S50000x64 S800000x1 S800000x64 where
  offsetDims := [1]
  collapsedSliceDims := [0]
  operandBatchingDims := []
  startIndicesBatchingDims := []
  startIndexMap := [0]
  indexVectorDim := 1
  sliceSizes := ![1, 64]
  wf := gather_S50000x64_S800000x1_S800000x64_1_0_n_n_0_1_164_wf
def scatter_S50000x64_S800000x1_S800000x64_1_0_0_1 : ScatterDims S50000x64 S800000x1 S800000x64 where
  updateWindowDims := [1]
  insertedWindowDims := [0]
  scatterDimsToOperandDims := [0]
  indexVectorDim := 1
  wf := scatter_S50000x64_S800000x1_S800000x64_1_0_0_1_wf
def scatter_S50000x1_S800000x1_S800000x1_1_0_0_1 : ScatterDims S50000x1 S800000x1 S800000x1 where
  updateWindowDims := [1]
  insertedWindowDims := [0]
  scatterDimsToOperandDims := [0]
  indexVectorDim := 1
  wf := scatter_S50000x1_S800000x1_S800000x1_1_0_0_1_wf
def dot_S5000x64_S64x64_S5000x64_1_0_0_1_n_n : DotDims S5000x64 S64x64 S5000x64 where
  lhsContracting := [1]
  rhsContracting := [0]
  lhsNonContracting := [0]
  rhsNonContracting := [1]
  lhsBatch := []
  rhsBatch := []
  wf := dot_S5000x64_S64x64_S5000x64_1_0_0_1_n_n_wf

abbrev win0_0 : Pipeline.Window sig grid0 :=
  Pipeline.Window.ofSpec (Memref.whole main_arg0) S5000x64.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v21) S5000x64.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v22) S64x64.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v23) S64x64.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_v24) S1x64.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpec (Memref.whole main_v25) S5000x64.size cc0_transform_5 reads0_5 true false 2 stage0_5 sem0_5
    hrank0 hreads0_5 hinb0_5 nbuf0_5 (Memref.isWhole_whole _) hwx0_5 hstage0_5

abbrev win0 : Fin 6 → Pipeline.Window sig grid0 := fun | 0 => win0_0 | 1 => win0_1 | 2 => win0_2 | 3 => win0_3 | 4 => win0_4 | 5 => win0_5 | ⟨_ + 6, h⟩ => absurd h (Nat.not_lt.2 (Nat.le_add_left _ _))
abbrev spec0 : Fin 6 → Pipeline.WinSpec sig grid0.rank := fun w => (win0 w).toWinSpec

abbrev win1_0 : Pipeline.Window sig grid1 :=
  Pipeline.Window.ofSpec (Memref.whole main_v25) S5000x64.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v43) S5000x64.size cc1_transform_1 reads1_1 false false 2 stage1_1 sem1_1
    hrank1 hreads1_1 hinb1_1 nbuf1_1 (Memref.isWhole_whole _) hwx1_1 hstage1_1

abbrev win1_2 : Pipeline.Window sig grid1 :=
  Pipeline.Window.ofSpec (Memref.whole main_v44) S64x64.size cc1_transform_2 reads1_2 false true 1 stage1_2 sem1_2
    hrank1 hreads1_2 hinb1_2 nbuf1_2 (Memref.isWhole_whole _) hwx1_2 hstage1_2

abbrev win1_3 : Pipeline.Window sig grid1 :=
  Pipeline.Window.ofSpec (Memref.whole main_v45) S64x64.size cc1_transform_3 reads1_3 false true 1 stage1_3 sem1_3
    hrank1 hreads1_3 hinb1_3 nbuf1_3 (Memref.isWhole_whole _) hwx1_3 hstage1_3

abbrev win1_4 : Pipeline.Window sig grid1 :=
  Pipeline.Window.ofSpec (Memref.whole main_v46) S1x64.size cc1_transform_4 reads1_4 false true 1 stage1_4 sem1_4
    hrank1 hreads1_4 hinb1_4 nbuf1_4 (Memref.isWhole_whole _) hwx1_4 hstage1_4

abbrev win1_5 : Pipeline.Window sig grid1 :=
  Pipeline.Window.ofSpec (Memref.whole main_v47) S5000x64.size cc1_transform_5 reads1_5 true false 2 stage1_5 sem1_5
    hrank1 hreads1_5 hinb1_5 nbuf1_5 (Memref.isWhole_whole _) hwx1_5 hstage1_5

abbrev win1 : Fin 6 → Pipeline.Window sig grid1 := fun | 0 => win1_0 | 1 => win1_1 | 2 => win1_2 | 3 => win1_3 | 4 => win1_4 | 5 => win1_5 | ⟨_ + 6, h⟩ => absurd h (Nat.not_lt.2 (Nat.le_add_left _ _))
abbrev spec1 : Fin 6 → Pipeline.WinSpec sig grid1.rank := fun w => (win1 w).toWinSpec

class Facts : Prop extends Facts₀ where

variable [Facts]
-- ==== ReferenceIdeal.lean ====
abbrev S50000x64 : Shape := ⟨2, ![50000, 64]⟩
abbrev S2x800000 : Shape := ⟨2, ![2, 800000]⟩
abbrev S128x64 : Shape := ⟨2, ![128, 64]⟩
abbrev S64 : Shape := ⟨1, ![64]⟩
abbrev S1x800000 : Shape := ⟨2, ![1, 800000]⟩
abbrev S800000 : Shape := ⟨1, ![800000]⟩
abbrev S_ : Shape := ⟨0, ![]⟩
abbrev S800000x1 : Shape := ⟨2, ![800000, 1]⟩
abbrev S800000x64 : Shape := ⟨2, ![800000, 64]⟩
abbrev S50000x1 : Shape := ⟨2, ![50000, 1]⟩
abbrev S50000x128 : Shape := ⟨2, ![50000, 128]⟩
abbrev S1x64 : Shape := ⟨2, ![1, 64]⟩

abbrev nBuf : Space → Nat
  | .hbm => 71
  | .vmem => 0
  | .smem => 0
  | _ => 0

abbrev bufTy : (tb : Table) → Fin (tcTables nBuf tb) → BufTy
  | .hbm, ⟨0, _⟩ => ⟨S50000x64, .f32⟩
  | .hbm, ⟨1, _⟩ => ⟨S2x800000, .i32⟩
  | .hbm, ⟨2, _⟩ => ⟨S128x64, .f32⟩
  | .hbm, ⟨3, _⟩ => ⟨S64, .f32⟩
  | .hbm, ⟨4, _⟩ => ⟨S128x64, .f32⟩
  | .hbm, ⟨5, _⟩ => ⟨S64, .f32⟩
  | .hbm, ⟨6, _⟩ => ⟨S1x800000, .i32⟩
  | .hbm, ⟨7, _⟩ => ⟨S800000, .i32⟩
  | .hbm, ⟨8, _⟩ => ⟨S1x800000, .i32⟩
  | .hbm, ⟨9, _⟩ => ⟨S800000, .i32⟩
  | .hbm, ⟨10, _⟩ => ⟨S_, .i32⟩
  | .hbm, ⟨11, _⟩ => ⟨S800000, .i32⟩
  | .hbm, ⟨12, _⟩ => ⟨S800000, .i1⟩
  | .hbm, ⟨13, _⟩ => ⟨S_, .i32⟩
  | .hbm, ⟨14, _⟩ => ⟨S800000, .i32⟩
  | .hbm, ⟨15, _⟩ => ⟨S800000, .i32⟩
  | .hbm, ⟨16, _⟩ => ⟨S800000, .i32⟩
  | .hbm, ⟨17, _⟩ => ⟨S800000x1, .i32⟩
  | .hbm, ⟨18, _⟩ => ⟨S800000x64, .f32⟩
  | .hbm, ⟨19, _⟩ => ⟨S_, .f32⟩
  | .hbm, ⟨20, _⟩ => ⟨S50000x64, .f32⟩
  | .hbm, ⟨21, _⟩ => ⟨S800000x1, .i32⟩
  | .hbm, ⟨22, _⟩ => ⟨S50000x64, .f32⟩
  | .hbm, ⟨23, _⟩ => ⟨S_, .f32⟩
  | .hbm, ⟨24, _⟩ => ⟨S800000x1, .f32⟩
  | .hbm, ⟨25, _⟩ => ⟨S_, .f32⟩
  | .hbm, ⟨26, _⟩ => ⟨S50000x1, .f32⟩
  | .hbm, ⟨27, _⟩ => ⟨S800000x1, .i32⟩
  | .hbm, ⟨28, _⟩ => ⟨S50000x1, .f32⟩
  | .hbm, ⟨29, _⟩ => ⟨S_, .f32⟩
  | .hbm, ⟨30, _⟩ => ⟨S50000x1, .f32⟩
  | .hbm, ⟨31, _⟩ => ⟨S50000x1, .f32⟩
  | .hbm, ⟨32, _⟩ => ⟨S50000x64, .f32⟩
  | .hbm, ⟨33, _⟩ => ⟨S50000x64, .f32⟩
  | .hbm, ⟨34, _⟩ => ⟨S50000x128, .f32⟩
  | .hbm, ⟨35, _⟩ => ⟨S50000x64, .f32⟩
  | .hbm, ⟨36, _⟩ => ⟨S1x64, .f32⟩
  | .hbm, ⟨37, _⟩ => ⟨S50000x64, .f32⟩
  | .hbm, ⟨38, _⟩ => ⟨S50000x64, .f32⟩
  | .hbm, ⟨39, _⟩ => ⟨S_, .f32⟩
  | .hbm, ⟨40, _⟩ => ⟨S50000x64, .f32⟩
  | .hbm, ⟨41, _⟩ => ⟨S50000x64, .f32⟩
  | .hbm, ⟨42, _⟩ => ⟨S_, .i32⟩
  | .hbm, ⟨43, _⟩ => ⟨S800000, .i32⟩
  | .hbm, ⟨44, _⟩ => ⟨S800000, .i1⟩
  | .hbm, ⟨45, _⟩ => ⟨S_, .i32⟩
  | .hbm, ⟨46, _⟩ => ⟨S800000, .i32⟩
  | .hbm, ⟨47, _⟩ => ⟨S800000, .i32⟩
  | .hbm, ⟨48, _⟩ => ⟨S800000, .i32⟩
  | .hbm, ⟨49, _⟩ => ⟨S800000x1, .i32⟩
  | .hbm, ⟨50, _⟩ => ⟨S800000x64, .f32⟩
  | .hbm, ⟨51, _⟩ => ⟨S_, .f32⟩
  | .hbm, ⟨52, _⟩ => ⟨S50000x64, .f32⟩
  | .hbm, ⟨53, _⟩ => ⟨S800000x1, .i32⟩
  | .hbm, ⟨54, _⟩ => ⟨S50000x64, .f32⟩
  | .hbm, ⟨55, _⟩ => ⟨S_, .f32⟩
  | .hbm, ⟨56, _⟩ => ⟨S800000x1, .f32⟩
  | .hbm, ⟨57, _⟩ => ⟨S_, .f32⟩
  | .hbm, ⟨58, _⟩ => ⟨S50000x1, .f32⟩
  | .hbm, ⟨59, _⟩ => ⟨S800000x1, .i32⟩
  | .hbm, ⟨60, _⟩ => ⟨S50000x1, .f32⟩
  | .hbm, ⟨61, _⟩ => ⟨S_, .f32⟩
  | .hbm, ⟨62, _⟩ => ⟨S50000x1, .f32⟩
  | .hbm, ⟨63, _⟩ => ⟨S50000x1, .f32⟩
  | .hbm, ⟨64, _⟩ => ⟨S50000x64, .f32⟩
  | .hbm, ⟨65, _⟩ => ⟨S50000x64, .f32⟩
  | .hbm, ⟨66, _⟩ => ⟨S50000x128, .f32⟩
  | .hbm, ⟨67, _⟩ => ⟨S50000x64, .f32⟩
  | .hbm, ⟨68, _⟩ => ⟨S1x64, .f32⟩
  | .hbm, ⟨69, _⟩ => ⟨S50000x64, .f32⟩
  | .hbm, ⟨70, _⟩ => ⟨S50000x64, .f32⟩
  | _, _ => ⟨S50000x64, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_c : Ref sig .tc := ⟨.hbm, 10, rfl⟩
abbrev main_v4 : Ref sig .tc := ⟨.hbm, 11, rfl⟩
abbrev main_v5 : Ref sig .tc := ⟨.hbm, 12, rfl⟩
abbrev main_c_0 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_cst : Ref sig .tc := ⟨.hbm, 19, rfl⟩
abbrev main_v11 : Ref sig .tc := ⟨.hbm, 20, rfl⟩
abbrev main_v12 : Ref sig .tc := ⟨.hbm, 21, rfl⟩
abbrev main_v13 : Ref sig .tc := ⟨.hbm, 22, rfl⟩
abbrev main_cst_1 : Ref sig .tc := ⟨.hbm, 23, rfl⟩
abbrev main_v14 : Ref sig .tc := ⟨.hbm, 24, rfl⟩
abbrev main_cst_2 : Ref sig .tc := ⟨.hbm, 25, rfl⟩
abbrev main_v15 : Ref sig .tc := ⟨.hbm, 26, rfl⟩
abbrev main_v16 : Ref sig .tc := ⟨.hbm, 27, rfl⟩
abbrev main_v17 : Ref sig .tc := ⟨.hbm, 28, rfl⟩
abbrev main_cst_3 : Ref sig .tc := ⟨.hbm, 29, rfl⟩
abbrev main_v18 : Ref sig .tc := ⟨.hbm, 30, rfl⟩
abbrev main_v19 : Ref sig .tc := ⟨.hbm, 31, rfl⟩
abbrev main_v20 : Ref sig .tc := ⟨.hbm, 32, rfl⟩
abbrev main_v21 : Ref sig .tc := ⟨.hbm, 33, rfl⟩
abbrev main_v22 : Ref sig .tc := ⟨.hbm, 34, rfl⟩
abbrev main_v23 : Ref sig .tc := ⟨.hbm, 35, rfl⟩
abbrev main_v24 : Ref sig .tc := ⟨.hbm, 36, rfl⟩
abbrev main_v25 : Ref sig .tc := ⟨.hbm, 37, rfl⟩
abbrev main_v26 : Ref sig .tc := ⟨.hbm, 38, rfl⟩
abbrev main_call0_cst : Ref sig .tc := ⟨.hbm, 39, rfl⟩
abbrev main_call0_v0 : Ref sig .tc := ⟨.hbm, 40, rfl⟩
abbrev main_v27 : Ref sig .tc := ⟨.hbm, 41, rfl⟩
abbrev main_c_4 : Ref sig .tc := ⟨.hbm, 42, rfl⟩
abbrev main_v28 : Ref sig .tc := ⟨.hbm, 43, rfl⟩
abbrev main_v29 : Ref sig .tc := ⟨.hbm, 44, rfl⟩
abbrev main_c_5 : Ref sig .tc := ⟨.hbm, 45, rfl⟩
abbrev main_v30 : Ref sig .tc := ⟨.hbm, 46, rfl⟩
abbrev main_v31 : Ref sig .tc := ⟨.hbm, 47, rfl⟩
abbrev main_v32 : Ref sig .tc := ⟨.hbm, 48, rfl⟩
abbrev main_v33 : Ref sig .tc := ⟨.hbm, 49, rfl⟩
abbrev main_v34 : Ref sig .tc := ⟨.hbm, 50, rfl⟩
abbrev main_cst_6 : Ref sig .tc := ⟨.hbm, 51, rfl⟩
abbrev main_v35 : Ref sig .tc := ⟨.hbm, 52, rfl⟩
abbrev main_v36 : Ref sig .tc := ⟨.hbm, 53, rfl⟩
abbrev main_v37 : Ref sig .tc := ⟨.hbm, 54, rfl⟩
abbrev main_cst_7 : Ref sig .tc := ⟨.hbm, 55, rfl⟩
abbrev main_v38 : Ref sig .tc := ⟨.hbm, 56, rfl⟩
abbrev main_cst_8 : Ref sig .tc := ⟨.hbm, 57, rfl⟩
abbrev main_v39 : Ref sig .tc := ⟨.hbm, 58, rfl⟩
abbrev main_v40 : Ref sig .tc := ⟨.hbm, 59, rfl⟩
abbrev main_v41 : Ref sig .tc := ⟨.hbm, 60, rfl⟩
abbrev main_cst_9 : Ref sig .tc := ⟨.hbm, 61, rfl⟩
abbrev main_v42 : Ref sig .tc := ⟨.hbm, 62, rfl⟩
abbrev main_v43 : Ref sig .tc := ⟨.hbm, 63, rfl⟩
abbrev main_v44 : Ref sig .tc := ⟨.hbm, 64, rfl⟩
abbrev main_v45 : Ref sig .tc := ⟨.hbm, 65, rfl⟩
abbrev main_v46 : Ref sig .tc := ⟨.hbm, 66, rfl⟩
abbrev main_v47 : Ref sig .tc := ⟨.hbm, 67, rfl⟩
abbrev main_v48 : Ref sig .tc := ⟨.hbm, 68, rfl⟩
abbrev main_v49 : Ref sig .tc := ⟨.hbm, 69, rfl⟩
abbrev main_v50 : Ref sig .tc := ⟨.hbm, 70, rfl⟩

abbrev nD : Nat := 1
abbrev τ : Topo := Topo.v7x

variable {F : FTy → Type} [FloatOps F]

class Facts₀ : Prop where
  slices_S2x800000_S1x800000_0_0 : S2x800000.Slices ![0, 0] S1x800000
  shapeCasts_S1x800000_S800000 : S1x800000.ShapeCasts S800000
  slices_S2x800000_S1x800000_1_0 : S2x800000.Slices ![1, 0] S1x800000
  bcast_S_S800000 : S_.BroadcastsInDim S800000 (![] : Fin 0 → Fin S800000.rank)
  bcast_S800000_S800000x1_0 : S800000.BroadcastsInDim S800000x1 (![0] : Fin 1 → Fin S800000x1.rank)
  bcast_S_S50000x64 : S_.BroadcastsInDim S50000x64 (![] : Fin 0 → Fin S50000x64.rank)
  bcast_S_S800000x1 : S_.BroadcastsInDim S800000x1 (![] : Fin 0 → Fin S800000x1.rank)
  bcast_S_S50000x1 : S_.BroadcastsInDim S50000x1 (![] : Fin 0 → Fin S50000x1.rank)
  bcast_S50000x1_S50000x64_0_1 : S50000x1.BroadcastsInDim S50000x64 (![0, 1] : Fin 2 → Fin S50000x64.rank)
  concatenates_S50000x64_S50000x64_S50000x128_d1 : Shape.Concatenates [S50000x64, S50000x64] S50000x128 1
  bcast_S64_S1x64_1 : S64.BroadcastsInDim S1x64 (![1] : Fin 1 → Fin S1x64.rank)
  bcast_S1x64_S50000x64_0_1 : S1x64.BroadcastsInDim S50000x64 (![0, 1] : Fin 2 → Fin S50000x64.rank)
  gather_S50000x64_S800000x1_S800000x64_1_0_n_n_0_1_164_wf : GatherDims.WF S50000x64 S800000x1 S800000x64 [1] [0] [] [0] [] 1 ![1, 64]
  scatter_S50000x64_S800000x1_S800000x64_1_0_0_1_wf : ScatterDims.WF S50000x64 S800000x1 S800000x64 [1] [0] [0] 1
  scatter_S50000x1_S800000x1_S800000x1_1_0_0_1_wf : ScatterDims.WF S50000x1 S800000x1 S800000x1 [1] [0] [0] 1
  dot_S50000x128_S128x64_S50000x64_1_0_0_1_n_n_wf : DotDims.WF S50000x128 S128x64 S50000x64 [1] [0] [0] [1] [] []

variable [Facts₀]

def gather_S50000x64_S800000x1_S800000x64_1_0_n_n_0_1_164 : GatherDims S50000x64 S800000x1 S800000x64 where
  offsetDims := [1]
  collapsedSliceDims := [0]
  operandBatchingDims := []
  startIndicesBatchingDims := []
  startIndexMap := [0]
  indexVectorDim := 1
  sliceSizes := ![1, 64]
  wf := gather_S50000x64_S800000x1_S800000x64_1_0_n_n_0_1_164_wf
def scatter_S50000x64_S800000x1_S800000x64_1_0_0_1 : ScatterDims S50000x64 S800000x1 S800000x64 where
  updateWindowDims := [1]
  insertedWindowDims := [0]
  scatterDimsToOperandDims := [0]
  indexVectorDim := 1
  wf := scatter_S50000x64_S800000x1_S800000x64_1_0_0_1_wf
def scatter_S50000x1_S800000x1_S800000x1_1_0_0_1 : ScatterDims S50000x1 S800000x1 S800000x1 where
  updateWindowDims := [1]
  insertedWindowDims := [0]
  scatterDimsToOperandDims := [0]
  indexVectorDim := 1
  wf := scatter_S50000x1_S800000x1_S800000x1_1_0_0_1_wf
def dot_S50000x128_S128x64_S50000x64_1_0_0_1_n_n : DotDims S50000x128 S128x64 S50000x64 where
  lhsContracting := [1]
  rhsContracting := [0]
  lhsNonContracting := [0]
  rhsNonContracting := [1]
  lhsBatch := []
  rhsBatch := []
  wf := dot_S50000x128_S128x64_S50000x64_1_0_0_1_n_n_wf

class Facts : Prop extends Facts₀ where

variable [Facts]
-- ==== Proof.Spec.lean ====
/-
  The two-layer mean-aggregating graph convolution, as functions of whole arrays.

  One layer takes node features X (50000 × 64), the edge list, a weight W (128 × 64) and a bias b (64).  Every node
  averages the features of the sources of its incoming edges (a gather of rows by the edge's source, a scatter-add
  into the edge's destination, divided by the in-degree or by one where it is zero): `agg X e`.  The layer's value at
  node p and output feature q is

        ∑ k < 64, X (p, k) · W (k, q)  +  ∑ k < 64, (agg X e) (p, k) · W (64 + k, q)  +  b q,

  the product of the row [X p ‖ agg p] with W, split at the joint.  The first layer is followed by max (·, 0).

  The aggregation is never opened: both programs apply the same operations to the same arrays, so it is carried as
  one function.  The layer is stated over the two halves of the weight and the bias as a one-row array, which is how
  the tiled program receives them.
-/
import proofs.«127339_j24515673325905_1_alg».proof.Proof.Gen.KernelIdeal
import Idealize.ShloMosaic.Lib.ValueIdx

noncomputable section

namespace Cert.Sage

open Idealize.ShloMosaic Idealize.ShloMosaic.ValueIdx Cert.KernelIdeal Cert.KernelIdeal.Facts₀ Cert.KernelIdeal.Facts
open scoped BigOperators

section Agg
variable {F : FTy → Type} [FloatOps F]

/-- The mean of the source rows over each node's incoming edges: edge j carries row `src j` of `feat` (a negative
    source counted from the end) to node `dst j`; the sums are divided by the number of incoming edges, or by one. -/
def agg (feat : (⟨S50000x64, .f32⟩ : BufTy).Contents (Elt F)) (e : (⟨S2x800000, .i32⟩ : BufTy).Contents (Elt F)) :
    (⟨S50000x64, .f32⟩ : BufTy).Contents (Elt F) :=
  Host.divf (Host.scatterAdd scatter_S50000x64_S800000x1_S800000x64_1_0_0_1 (broadcastInDim S50000x64 ![] bcast_S_S50000x64 (constant S_ .f32 0x00000000#32)) (broadcastInDim S800000x1 ![0] bcast_S800000_S800000x1_0 (shapeCast _ (extractStridedSlice S1x800000 ![1, 0] e slices_S2x800000_S1x800000_1_0) shapeCasts_S1x800000_S800000)) (Host.gather gather_S50000x64_S800000x1_S800000x64_1_0_n_n_0_1_164 feat (broadcastInDim S800000x1 ![0] bcast_S800000_S800000x1_0 (select (cmpi .slt (shapeCast _ (extractStridedSlice S1x800000 ![0, 0] e slices_S2x800000_S1x800000_0_0) shapeCasts_S1x800000_S800000) (broadcastInDim S800000 ![] bcast_S_S800000 (constantI S_ 32 0#32))) (addi (shapeCast _ (extractStridedSlice S1x800000 ![0, 0] e slices_S2x800000_S1x800000_0_0) shapeCasts_S1x800000_S800000) (broadcastInDim S800000 ![] bcast_S_S800000 (constantI S_ 32 50000#32))) (shapeCast _ (extractStridedSlice S1x800000 ![0, 0] e slices_S2x800000_S1x800000_0_0) shapeCasts_S1x800000_S800000))))) (broadcastInDim S50000x64 ![0, 1] bcast_S50000x1_S50000x64_0_1 (maximumf (Host.scatterAdd scatter_S50000x1_S800000x1_S800000x1_1_0_0_1 (broadcastInDim S50000x1 ![] bcast_S_S50000x1 (constant S_ .f32 0x00000000#32)) (broadcastInDim S800000x1 ![0] bcast_S800000_S800000x1_0 (shapeCast _ (extractStridedSlice S1x800000 ![1, 0] e slices_S2x800000_S1x800000_1_0) shapeCasts_S1x800000_S800000)) (broadcastInDim S800000x1 ![] bcast_S_S800000x1 (constant S_ .f32 0x3F800000#32))) (broadcastInDim S50000x1 ![] bcast_S_S50000x1 (constant S_ .f32 0x3F800000#32))))

/-- The upper half of the weight: rows 0 … 63. -/
def wTop (W : (⟨S128x64, .f32⟩ : BufTy).Contents (Elt F)) : (⟨S64x64, .f32⟩ : BufTy).Contents (Elt F) :=
  extractStridedSlice S64x64 ![0, 0] W slices_S128x64_S64x64_0_0

/-- The lower half of the weight: rows 64 … 127. -/
def wBot (W : (⟨S128x64, .f32⟩ : BufTy).Contents (Elt F)) : (⟨S64x64, .f32⟩ : BufTy).Contents (Elt F) :=
  extractStridedSlice S64x64 ![64, 0] W slices_S128x64_S64x64_64_0

/-- The bias as a one-row array. -/
def bRow (b : (⟨S64, .f32⟩ : BufTy).Contents (Elt F)) : (⟨S1x64, .f32⟩ : BufTy).Contents (Elt F) :=
  shapeCast _ b shapeCasts_S64_S1x64

end Agg

/-- One layer's value at node `p`, output feature `q`, before any rectifier: the node's own row against the
    upper half of the weight, its aggregated row against the lower half, and the bias. -/
def linAt (X A : FVec Ideal S50000x64 .f32) (Wa Wb : FVec Ideal S64x64 .f32) (B : FVec Ideal S1x64 .f32)
    (p : Fin 50000) (q : Fin 64) : EReal :=
  (∑ k : Fin 64, X (ix2 p k) * Wa (ix2 k q)) + (∑ k : Fin 64, A (ix2 p k) * Wb (ix2 k q)) + B (ix2 (0 : Fin 1) q)

/-- The layer without rectifier, as an array. -/
def lin (X A : FVec Ideal S50000x64 .f32) (Wa Wb : FVec Ideal S64x64 .f32) (B : FVec Ideal S1x64 .f32) :
    FVec Ideal S50000x64 .f32 :=
  fun i => linAt X A Wa Wb B (i 0) (i 1)

/-- The layer followed by max (·, 0), as an array. -/
def linRelu (X A : FVec Ideal S50000x64 .f32) (Wa Wb : FVec Ideal S64x64 .f32) (B : FVec Ideal S1x64 .f32) :
    FVec Ideal S50000x64 .f32 :=
  fun i => max (linAt X A Wa Wb B (i 0) (i 1)) 0

theorem lin_apply (X A : FVec Ideal S50000x64 .f32) (Wa Wb : FVec Ideal S64x64 .f32) (B : FVec Ideal S1x64 .f32)
    (p : Fin 50000) (q : Fin 64) : lin X A Wa Wb B (ix2 p q) = linAt X A Wa Wb B p q := rfl

theorem linRelu_apply (X A : FVec Ideal S50000x64 .f32) (Wa Wb : FVec Ideal S64x64 .f32) (B : FVec Ideal S1x64 .f32)
    (p : Fin 50000) (q : Fin 64) : linRelu X A Wa Wb B (ix2 p q) = max (linAt X A Wa Wb B p q) 0 := rfl

/-- The whole network: two layers over the same edges, the first rectified. -/
def net (x : FVec Ideal S50000x64 .f32) (e : (⟨S2x800000, .i32⟩ : BufTy).Contents (Elt Ideal))
    (W1 : FVec Ideal S128x64 .f32) (b1 : FVec Ideal S64 .f32) (W2 : FVec Ideal S128x64 .f32) (b2 : FVec Ideal S64 .f32) :
    FVec Ideal S50000x64 .f32 :=
  lin (linRelu x (agg (F := Ideal) x e) (wTop (F := Ideal) W1) (wBot (F := Ideal) W1) (bRow (F := Ideal) b1))
      (agg (F := Ideal) (linRelu x (agg (F := Ideal) x e) (wTop (F := Ideal) W1) (wBot (F := Ideal) W1) (bRow (F := Ideal) b1)) e)
      (wTop (F := Ideal) W2) (wBot (F := Ideal) W2) (bRow (F := Ideal) b2)

end Cert.Sage

end
-- ==== Proof.HostReads.lean ====
/-
  What the host stretches of the tiled program leave in the buffers its two tiled regions stage.

  Before the first region: the mean aggregation of the input features, the two halves of the first weight, the first
  bias as a one-row array; the input features themselves are untouched.  Between the regions: the same aggregation
  applied to the first region's output (the edge list's two rows, computed once before the first region, are still
  where they were: neither region writes them), and the second weight's halves and bias.
-/
import proofs.«127339_j24515673325905_1_alg».proof.Proof.Spec
import proofs.«127339_j24515673325905_1_alg».proof.Proof.Gen.KernelIdeal.Frame
import Idealize.ShloMosaic.Lib.StableHlo.Run

set_option maxRecDepth 16384

noncomputable section

namespace Cert.Sage.Host

open Idealize.ShloMosaic Idealize.ShloMosaic.TcCoe Idealize.SL.Sem Idealize.ShloMosaic.StableHlo
open Cert.KernelIdeal Cert.KernelIdeal.Gen Cert.KernelIdeal.Facts₀ Cert.KernelIdeal.Facts

variable {F : FTy → Type} [FloatOps F]
variable (m : (ℓ : Loc nD τ sig) → Buf (Elt F) ℓ) (ρ : Dev nD → PrngReg)

/-! ## Before the first region -/

/-- The features reach the first region as launched. -/
theorem V1_arg0 (c : Dev nD) : V1 m ρ c main_arg0 = (m ((c : Thread nD τ).loc main_arg0)) := by
  show StableHlo.after hostOps0 (W0 m ρ c) (Proc.devRef .tc main_arg0) = _
  after_results

set_option maxHeartbeats 4000000 in
/-- The first region's second operand is the aggregation of the input features. -/
theorem V1_v21 (c : Dev nD) : V1 m ρ c main_v21 = agg (m ((c : Thread nD τ).loc main_arg0)) (m ((c : Thread nD τ).loc main_arg1)) := by
  show StableHlo.after hostOps0 (W0 m ρ c) (Proc.devRef .tc main_v21) = _
  unfold agg
  after_results_simp
  rfl

theorem V1_v22 (c : Dev nD) : V1 m ρ c main_v22 = wTop (m ((c : Thread nD τ).loc main_arg2)) := by
  show StableHlo.after hostOps0 (W0 m ρ c) (Proc.devRef .tc main_v22) = _
  unfold wTop
  after_results

theorem V1_v23 (c : Dev nD) : V1 m ρ c main_v23 = wBot (m ((c : Thread nD τ).loc main_arg2)) := by
  show StableHlo.after hostOps0 (W0 m ρ c) (Proc.devRef .tc main_v23) = _
  unfold wBot
  after_results

theorem V1_v24 (c : Dev nD) : V1 m ρ c main_v24 = bRow (m ((c : Thread nD τ).loc main_arg3)) := by
  show StableHlo.after hostOps0 (W0 m ρ c) (Proc.devRef .tc main_v24) = _
  unfold bRow
  after_results
  rfl

/-! ## Between the regions

The first region's windows stage the features, the aggregation, the first weight's halves, the first bias and its own
output; every other buffer leaves the region as it entered it. -/

/-- The edges' sources, as the first stretch computed them, are still there after the first region. -/
theorem W2_v1 (c : Dev nD) : W2 m ρ c (Proc.devRef .tc main_v1) = (shapeCast _ (extractStridedSlice S1x800000 ![0, 0] (m ((c : Thread nD τ).loc main_arg1)) Facts₀.slices_S2x800000_S1x800000_0_0) Facts₀.shapeCasts_S1x800000_S800000) := by
  rw [W2_of_ne m ρ c main_v1 (by decide)]
  show StableHlo.after hostOps0 (W0 m ρ c) (Proc.devRef .tc main_v1) = _
  after_results
  rfl

/-- The edges' destinations likewise. -/
theorem W2_v3 (c : Dev nD) : W2 m ρ c (Proc.devRef .tc main_v3) = (shapeCast _ (extractStridedSlice S1x800000 ![1, 0] (m ((c : Thread nD τ).loc main_arg1)) Facts₀.slices_S2x800000_S1x800000_1_0) Facts₀.shapeCasts_S1x800000_S800000) := by
  rw [W2_of_ne m ρ c main_v3 (by decide)]
  show StableHlo.after hostOps0 (W0 m ρ c) (Proc.devRef .tc main_v3) = _
  after_results
  rfl

/-- The second weight is as launched. -/
theorem W2_arg4 (c : Dev nD) : W2 m ρ c (Proc.devRef .tc main_arg4) = (m ((c : Thread nD τ).loc main_arg4)) := by
  rw [W2_of_ne m ρ c main_arg4 (by decide)]
  show StableHlo.after hostOps0 (W0 m ρ c) (Proc.devRef .tc main_arg4) = _
  after_results

/-- The second bias is as launched. -/
theorem W2_arg5 (c : Dev nD) : W2 m ρ c (Proc.devRef .tc main_arg5) = (m ((c : Thread nD τ).loc main_arg5)) := by
  rw [W2_of_ne m ρ c main_arg5 (by decide)]
  show StableHlo.after hostOps0 (W0 m ρ c) (Proc.devRef .tc main_arg5) = _
  after_results

/-- The second stretch does not write the first region's output. -/
theorem V3_v25 (c : Dev nD) : V3 m ρ c main_v25 = V2 m ρ c main_v25 := by
  show StableHlo.after hostOps1 (W2 m ρ c) (Proc.devRef .tc main_v25) = _
  after_results

set_option maxHeartbeats 4000000 in
/-- The second region's second operand is the aggregation of the first region's output over the same edges. -/
theorem V3_v43 (c : Dev nD) : V3 m ρ c main_v43 = agg (V2 m ρ c main_v25) (m ((c : Thread nD τ).loc main_arg1)) := by
  show StableHlo.after hostOps1 (W2 m ρ c) (Proc.devRef .tc main_v43) = _
  unfold agg
  after_results_simp
  rw [W2_v1, W2_v3]

theorem V3_v44 (c : Dev nD) : V3 m ρ c main_v44 = wTop (m ((c : Thread nD τ).loc main_arg4)) := by
  show StableHlo.after hostOps1 (W2 m ρ c) (Proc.devRef .tc main_v44) = _
  unfold wTop
  after_results
  rw [W2_arg4]

theorem V3_v45 (c : Dev nD) : V3 m ρ c main_v45 = wBot (m ((c : Thread nD τ).loc main_arg4)) := by
  show StableHlo.after hostOps1 (W2 m ρ c) (Proc.devRef .tc main_v45) = _
  unfold wBot
  after_results
  rw [W2_arg4]

theorem V3_v46 (c : Dev nD) : V3 m ρ c main_v46 = bRow (m ((c : Thread nD τ).loc main_arg5)) := by
  show StableHlo.after hostOps1 (W2 m ρ c) (Proc.devRef .tc main_v46) = _
  unfold bRow
  after_results
  rw [W2_arg5]
  rfl

end Cert.Sage.Host

end
-- ==== Proof.LibPlainDot.lean ====
/-
  A plain matrix product [a, k] · [k, b] → [a, b]: no batch axis, one contracted axis of extent k (axis 1 of the left
  operand, axis 0 of the right), the rows from the left operand, the columns from the right.

  The dimension numbers place the coordinates: the left operand is read at (row of the result, contraction
  position), the right at (contraction position, column of the result). So at the ideal values, where both the
  kernel's product into a zero accumulator and the host's product are the exact sum over the contraction index,
  the entry (p, q) of either is  ∑ κ < k, l (p, κ) · r (κ, q).
-/
import Idealize.ShloMosaic.Lib.ValueIdx
import Idealize.ShloMosaic.PureOps.Ideal.Laws

namespace Cert.PlainDot

open Idealize.ShloMosaic Idealize.ShloMosaic.ValueIdx

variable {a k b : ℕ} (d : DotDims ⟨2, ![a, k]⟩ ⟨2, ![k, b]⟩ ⟨2, ![a, b]⟩)

/-- The dimension numbers of a plain matrix product. -/
structure Plain : Prop where
  lhsBatch : d.lhsBatch = []
  lhsNon : d.lhsNonContracting = [0]
  lhsContr : d.lhsContracting = [1]
  rhsBatch : d.rhsBatch = []
  rhsNon : d.rhsNonContracting = [1]
  rhsContr : d.rhsContracting = [0]

variable {d}

/-- The left operand's row is the result's row. -/
theorem lhs_row (h : Plain d) (j : (⟨2, ![a, b]⟩ : Shape).Idx) (q : d.contr.Idx) : (d.lhsIdx j q 0).val = (j 0).val := by
  unfold DotDims.lhsIdx
  rw [dif_neg (by rw [h.lhsBatch]; exact List.not_mem_nil), dif_pos (by rw [h.lhsNon]; exact List.mem_singleton.mpr rfl)]
  simp only [Fin.val_cast]
  have key : ∀ (p : Nat) (hp : p < 2), p = 0 → (j ⟨p, hp⟩).val = (j 0).val := fun p hp e => by subst e; rfl
  exact key _ _ (by simp [h.lhsBatch, h.lhsNon])

/-- The right operand's column is the result's column. -/
theorem rhs_col (h : Plain d) (j : (⟨2, ![a, b]⟩ : Shape).Idx) (q : d.contr.Idx) : (d.rhsIdx j q 1).val = (j 1).val := by
  unfold DotDims.rhsIdx
  rw [dif_neg (by rw [h.rhsBatch]; exact List.not_mem_nil), dif_pos (by rw [h.rhsNon]; exact List.mem_singleton.mpr rfl)]
  simp only [Fin.val_cast]
  have key : ∀ (p : Nat) (hp : p < 2), p = 1 → (j ⟨p, hp⟩).val = (j 1).val := fun p hp e => by subst e; rfl
  exact key _ _ (by simp [h.lhsBatch, h.lhsNon, h.rhsNon])

/-- The contraction over the record's own index type, re-indexed to κ < k. -/
theorem sum_contr (h : Plain d) (hr : d.contr.rank = 1) (hs : d.contr.size ⟨0, by omega⟩ = k)
    (l : (⟨2, ![a, k]⟩ : Shape).Idx → EReal) (r : (⟨2, ![k, b]⟩ : Shape).Idx → EReal) (p : Fin a) (q : Fin b) :
    ∑ κ : d.contr.Idx, l (d.lhsIdx (ix2 p q) κ) * r (d.rhsIdx (ix2 p q) κ) = ∑ κ : Fin k, l (ix2 p κ) * r (ix2 κ q) := by
  rw [← Equiv.sum_comp (contrEquiv1 d k hr hs).symm]
  refine Finset.sum_congr rfl fun κ _ => ?_
  have hk := contrEquiv1_symm_val d k hr hs κ
  have el : d.lhsIdx (ix2 p q) ((contrEquiv1 d k hr hs).symm κ) = ix2 p κ := funext fun x => Fin.ext (by
    match x with
    | ⟨0, _⟩ => exact lhs_row h _ _
    | ⟨1, _⟩ => exact (d.lhsIdx_val_of_single h.lhsContr _ _).trans hk)
  have er : d.rhsIdx (ix2 p q) ((contrEquiv1 d k hr hs).symm κ) = ix2 κ q := funext fun x => Fin.ext (by
    match x with
    | ⟨0, _⟩ => exact (d.rhsIdx_val_of_single h.rhsContr _ _).trans hk
    | ⟨1, _⟩ => exact rhs_col h _ _)
  rw [el, er]

/-- The kernel's matrix product into a zero accumulator, at an entry. -/
theorem matmul_zero_apply {φ₁ φ₂ : FTy} (h : Plain d) (hr : d.contr.rank = 1) (hs : d.contr.size ⟨0, by omega⟩ = k)
    (prec : Option ContractPrecision) (l : FVec Ideal ⟨2, ![a, k]⟩ φ₁) (r : FVec Ideal ⟨2, ![k, b]⟩ φ₂) (p : Fin a) (q : Fin b) :
    matmul d prec l r (constant ⟨2, ![a, b]⟩ .f32 0x00000000#32) (ix2 p q) = ∑ κ : Fin k, l (ix2 p κ) * r (ix2 κ q) :=
  (Ideal.matmul_constant_zero_apply d prec l r (ix2 p q)).trans (sum_contr h hr hs l r p q)

/-- The host's matrix product, at an entry. -/
theorem dotGeneral_apply {φ₁ φ₂ : FTy} (h : Plain d) (hr : d.contr.rank = 1) (hs : d.contr.size ⟨0, by omega⟩ = k)
    (prec : Option ContractPrecision) (l : FVec Ideal ⟨2, ![a, k]⟩ φ₁) (r : FVec Ideal ⟨2, ![k, b]⟩ φ₂) (p : Fin a) (q : Fin b) :
    Host.dotGeneral d prec l r (ix2 p q) = ∑ κ : Fin k, l (ix2 p κ) * r (ix2 κ q) := by
  simp only [Host.dotGeneral]
  exact (Ideal.dotGeneral_apply d prec _ l r (ix2 p q)).trans (sum_contr h hr hs l r p q)

end Cert.PlainDot
-- ==== Proof.Region0.lean ====
/-
  The first layer's tiled region, read as one function of whole arrays.

  The region walks ten row blocks of 5000 nodes.  At a block it holds the block's rows of the node features X and of
  the aggregated features A, the two 64 × 64 halves Wa, Wb of the weight and the bias row B, and writes, for a row r
  of the block and an output feature q,

        max ( ∑ k < 64, X (r, k) · Wa (k, q)  +  ∑ k < 64, A (r, k) · Wb (k, q)  +  B (0, q) ,  0 ).

  Row r of block t is node 5000 · t + r, and the ten blocks tile the 50000 nodes, so the output array is the
  rectified layer of the five arrays at every node.
-/
import proofs.«127339_j24515673325905_1_alg».proof.Proof.Spec
import proofs.«127339_j24515673325905_1_alg».proof.Proof.LibPlainDot
import proofs.«127339_j24515673325905_1_alg».proof.Proof.Gen.KernelIdeal.Frame
import Idealize.ShloMosaic.Lib.ValueIdx
import Idealize.ShloMosaic.Lib.Pipeline.Value
import Idealize.ShloMosaic.PureOps.Ideal.Laws

noncomputable section

namespace Cert.Sage.Region0

open Idealize.ShloMosaic Idealize.ShloMosaic.TcCoe Idealize.ShloMosaic.ValueIdx Idealize.SL.Sem Cert.KernelIdeal Cert.KernelIdeal.Gen
open Cert.KernelIdeal.Facts₀ Cert.KernelIdeal.Facts
open Idealize.ShloMosaic.Pipeline (Dat)
open scoped BigOperators

/-! ## One entry of the block the body stores -/

/-- The product's dimension numbers are those of a plain matrix product: rows from the left, columns from the right,
    one contracted axis. -/
theorem plain : Cert.PlainDot.Plain dot_S5000x64_S64x64_S5000x64_1_0_0_1_n_n := ⟨rfl, rfl, rfl, rfl, rfl, rfl⟩

/-- It contracts one axis … -/
theorem contr_rank : dot_S5000x64_S64x64_S5000x64_1_0_0_1_n_n.contr.rank = 1 := rfl

/-- … of the 64 input features. -/
theorem contr_size : dot_S5000x64_S64x64_S5000x64_1_0_0_1_n_n.contr.size ⟨0, by rw [contr_rank]; omega⟩ = 64 := rfl

/-- The bias row spread over the 5000 rows reads, at (r, q), the row's entry q. -/
theorem bias_apply (x4 : Vec Ideal S1x64 .f32) (h : S1x64.Broadcasts S5000x64) (r : Fin 5000) (q : Fin 64) :
    broadcastTo S5000x64 x4 h (ix2 r q) = x4 (ix2 (0 : Fin 1) q) :=
  broadcastTo_apply x4 h (ix2 r q) (ix2 (0 : Fin 1) q) fun a => by
    match a with
    | ⟨0, _⟩ => rfl
    | ⟨1, _⟩ => rfl

/-- Entry (r, q) of the stored block: the two products summed over the 64 input features, the bias of column q, and
    the maximum with zero. -/
theorem pay_apply (x0 x1 : Vec Ideal S5000x64 .f32) (x2 x3 : Vec Ideal S64x64 .f32) (x4 : Vec Ideal S1x64 .f32)
    (r : Fin 5000) (q : Fin 64) :
    k0_pay1 x0 x1 x2 x3 x4 (ix2 r q)
      = max ((∑ k : Fin 64, x0 (ix2 r k) * x2 (ix2 k q)) + (∑ k : Fin 64, x1 (ix2 r k) * x3 (ix2 k q)) + x4 (ix2 (0 : Fin 1) q)) 0 := by
  unfold k0_pay1
  rw [maximumf_apply, addf_apply, addf_apply, broadcast_apply,
    Cert.PlainDot.matmul_zero_apply plain contr_rank rfl, Cert.PlainDot.matmul_zero_apply plain contr_rank rfl]
  simp only [truncf_apply, shapeCast_self]
  rw [bias_apply]
  show max _ (Ideal.ofBits .f32 0x00000000#32) = _
  rw [Ideal.ofBits_zero_f32]

/-! ## The blocks a point reads, as rows of the arrays -/

variable (V : (c : Dev nD) → (b : Ref sig .tc) → Buf (Elt Ideal) ((c : Thread nD τ).loc b))

/-- The offset of a whole-buffer access is the origin. -/
theorem origin_eq : (![0, 0] : Fin 2 → Nat) = fun _ => 0 := funext fun a => by
  match a with
  | ⟨0, _⟩ => rfl
  | ⟨1, _⟩ => rfl

/-- Where each window's block sits at point t: the node features, the aggregated features and the output move down
    one block of rows per point; the weight halves and the bias stay at the origin. -/
theorem block_positions : ∀ t : Fin cfg0.N,
    win0_0.index t (0 : Fin 2) = t.val ∧ win0_0.index t (1 : Fin 2) = 0
    ∧ win0_1.index t (0 : Fin 2) = t.val ∧ win0_1.index t (1 : Fin 2) = 0
    ∧ win0_2.index t (0 : Fin 2) = 0 ∧ win0_2.index t (1 : Fin 2) = 0
    ∧ win0_3.index t (0 : Fin 2) = 0 ∧ win0_3.index t (1 : Fin 2) = 0
    ∧ win0_4.index t (0 : Fin 2) = 0 ∧ win0_4.index t (1 : Fin 2) = 0
    ∧ win0_5.index t (0 : Fin 2) = t.val ∧ win0_5.index t (1 : Fin 2) = 0 :=
  (by decide +kernel : ∀ t : Fin grid0.N, _)

/-- Row r of the node-feature block at point t is row 5000 t + r of the node features. -/
theorem xblk_apply (c : Dev nD) (t : Fin cfg0.N) (r : Fin 5000) (k : Fin 64) (p : Fin 50000)
    (hp : p.val = 5000 * t.val + r.val) :
    (iblk0 V c 0 t : Vec Ideal S5000x64 .f32) (ix2 r k) = (V c main_arg0 : FVec Ideal S50000x64 .f32) (ix2 p k) := by
  obtain ⟨e0, e1, -⟩ := block_positions t
  unfold iblk0
  rw [View.read_apply]
  show V c main_arg0 _ = V c main_arg0 _
  congr 1
  funext a
  apply Fin.ext
  match a with
  | ⟨0, _⟩ => show win0_0.index t (0 : Fin 2) * 5000 + 1 * r.val = p.val; rw [e0, hp]; omega
  | ⟨1, _⟩ => show win0_0.index t (1 : Fin 2) * 64 + 1 * k.val = k.val; rw [e1]; omega

/-- Row r of the aggregated-feature block at point t is row 5000 t + r of the aggregated features. -/
theorem ablk_apply (c : Dev nD) (t : Fin cfg0.N) (r : Fin 5000) (k : Fin 64) (p : Fin 50000)
    (hp : p.val = 5000 * t.val + r.val) :
    (iblk0 V c 1 t : Vec Ideal S5000x64 .f32) (ix2 r k) = (V c main_v21 : FVec Ideal S50000x64 .f32) (ix2 p k) := by
  obtain ⟨-, -, e0, e1, -⟩ := block_positions t
  unfold iblk0
  rw [View.read_apply]
  show V c main_v21 _ = V c main_v21 _
  congr 1
  funext a
  apply Fin.ext
  match a with
  | ⟨0, _⟩ => show win0_1.index t (0 : Fin 2) * 5000 + 1 * r.val = p.val; rw [e0, hp]; omega
  | ⟨1, _⟩ => show win0_1.index t (1 : Fin 2) * 64 + 1 * k.val = k.val; rw [e1]; omega

/-- The upper weight half is staged whole at every point. -/
theorem wablk_eq (c : Dev nD) (t : Fin cfg0.N) :
    (iblk0 V c 2 t : Vec Ideal S64x64 .f32) = (V c main_v22 : FVec Ideal S64x64 .f32) := by
  obtain ⟨-, -, -, -, e0, e1, -⟩ := block_positions t
  funext j
  unfold iblk0
  rw [View.read_apply]
  show V c main_v22 _ = V c main_v22 _
  congr 1
  funext a
  apply Fin.ext
  match a with
  | ⟨0, _⟩ => show win0_2.index t (0 : Fin 2) * 64 + 1 * (j 0).val = (j 0).val; rw [e0]; omega
  | ⟨1, _⟩ => show win0_2.index t (1 : Fin 2) * 64 + 1 * (j 1).val = (j 1).val; rw [e1]; omega

/-- The lower weight half is staged whole at every point. -/
theorem wbblk_eq (c : Dev nD) (t : Fin cfg0.N) :
    (iblk0 V c 3 t : Vec Ideal S64x64 .f32) = (V c main_v23 : FVec Ideal S64x64 .f32) := by
  obtain ⟨-, -, -, -, -, -, e0, e1, -⟩ := block_positions t
  funext j
  unfold iblk0
  rw [View.read_apply]
  show V c main_v23 _ = V c main_v23 _
  congr 1
  funext a
  apply Fin.ext
  match a with
  | ⟨0, _⟩ => show win0_3.index t (0 : Fin 2) * 64 + 1 * (j 0).val = (j 0).val; rw [e0]; omega
  | ⟨1, _⟩ => show win0_3.index t (1 : Fin 2) * 64 + 1 * (j 1).val = (j 1).val; rw [e1]; omega

/-- The bias row is staged whole at every point. -/
theorem bblk_eq (c : Dev nD) (t : Fin cfg0.N) :
    (iblk0 V c 4 t : Vec Ideal S1x64 .f32) = (V c main_v24 : FVec Ideal S1x64 .f32) := by
  obtain ⟨-, -, -, -, -, -, -, -, e0, e1, -⟩ := block_positions t
  funext j
  unfold iblk0
  rw [View.read_apply]
  show V c main_v24 _ = V c main_v24 _
  congr 1
  funext a
  apply Fin.ext
  match a with
  | ⟨0, _⟩ => show win0_4.index t (0 : Fin 2) * 1 + 1 * (j 0).val = (j 0).val; rw [e0]; omega
  | ⟨1, _⟩ => show win0_4.index t (1 : Fin 2) * 64 + 1 * (j 1).val = (j 1).val; rw [e1]; omega

/-! ## What a point writes back -/

/-- An entry of the stored block, when the blocks it is computed from are the named rows of the arrays, is the
    rectified layer at that node. -/
theorem entry_eq (X A : FVec Ideal S50000x64 .f32) (Wa Wb : FVec Ideal S64x64 .f32) (B : FVec Ideal S1x64 .f32)
    (x0 x1 : Vec Ideal S5000x64 .f32) (x2 x3 : Vec Ideal S64x64 .f32) (x4 : Vec Ideal S1x64 .f32)
    (r : Fin 5000) (q : Fin 64) (p : Fin 50000)
    (h0 : ∀ k : Fin 64, x0 (ix2 r k) = X (ix2 p k)) (h1 : ∀ k : Fin 64, x1 (ix2 r k) = A (ix2 p k))
    (h2 : x2 = Wa) (h3 : x3 = Wb) (h4 : x4 = B) :
    k0_pay1 x0 x1 x2 x3 x4 (ix2 r q) = Cert.Sage.linRelu X A Wa Wb B (ix2 p q) := by
  subst h2 h3 h4
  rw [pay_apply, Cert.Sage.linRelu_apply]
  unfold Cert.Sage.linAt
  simp only [h0, h1]

/-- Point t writes back block t of the rectified layer of the five arrays. -/
theorem written_block (c : Dev nD) (t : Fin cfg0.N) :
    (dat0 V c).flushed 5 t = ((cfg0.win 5).blk t).view.read (Elt Ideal)
      (Cert.Sage.linRelu (V c main_arg0) (V c main_v21) (V c main_v22) (V c main_v23) (V c main_v24)) := by
  show (cfg0.win 5).cut (grid0.coords t) ((dat0 V c).after 5 t) = _
  rw [after0_5]
  unfold out0_5
  rw [View.canon_unit_zero origin_eq]
  simp only [View.ld_unit_zero (S := S5000x64) origin_eq, View.ld_unit_zero (S := S64x64) origin_eq, View.ld_unit_zero (S := S1x64) origin_eq]
  funext j
  obtain ⟨r, q, rfl⟩ : ∃ (r : Fin 5000) (q : Fin 64), j = ix2 r q := ⟨j 0, j 1, eq_ix2 j⟩
  have hN : cfg0.N = 10 := N_0
  have ht : t.val < 10 := hN ▸ t.isLt
  have hp : 5000 * t.val + r.val < 50000 := by have := r.isLt; omega
  obtain ⟨-, -, -, -, -, -, -, -, -, -, e0, e1⟩ := block_positions t
  have hx : (win0 5).xinj (grid0.coords t) (ix2 r q) = ix2 r q := funext fun a => Fin.ext (by
    match a with
    | ⟨0, _⟩ => rfl
    | ⟨1, _⟩ => rfl)
  have hemb : ((cfg0.win 5).blk t).view.emb (ix2 r q) = ix2 (⟨5000 * t.val + r.val, hp⟩ : Fin 50000) q :=
    funext fun a => Fin.ext (by
      match a with
      | ⟨0, _⟩ => show win0_5.index t (0 : Fin 2) * 5000 + 1 * r.val = 5000 * t.val + r.val; rw [e0]; omega
      | ⟨1, _⟩ => show win0_5.index t (1 : Fin 2) * 64 + 1 * q.val = q.val; rw [e1]; omega)
  show k0_pay1 (iblk0 V c 0 t) (iblk0 V c 1 t) (iblk0 V c 2 t) (iblk0 V c 3 t) (iblk0 V c 4 t)
      ((win0 5).xinj (grid0.coords t) (ix2 r q))
    = Cert.Sage.linRelu (V c main_arg0) (V c main_v21) (V c main_v22) (V c main_v23) (V c main_v24)
      (((cfg0.win 5).blk t).view.emb (ix2 r q))
  rw [hx, hemb]
  exact entry_eq (V c main_arg0) (V c main_v21) (V c main_v22) (V c main_v23) (V c main_v24)
    (iblk0 V c 0 t) (iblk0 V c 1 t) (iblk0 V c 2 t) (iblk0 V c 3 t) (iblk0 V c 4 t) r q ⟨5000 * t.val + r.val, hp⟩
    (fun k => xblk_apply V c t r k ⟨5000 * t.val + r.val, hp⟩ rfl)
    (fun k => ablk_apply V c t r k ⟨5000 * t.val + r.val, hp⟩ rfl)
    (wablk_eq V c t) (wbblk_eq V c t) (bblk_eq V c t)

/-! ## The ten blocks tile the array -/

/-- A node and feature lie in point t's output block when each coordinate lies in the block's range. -/
theorem mem_block_iff (t : Fin cfg0.N) (i : S50000x64.Idx) :
    i ∈ ((cfg0.win 5).blk t).view.set ↔ ∀ a : Fin 2, win0_5.index t a * S5000x64.size a ≤ (i a).val
      ∧ (i a).val < win0_5.index t a * S5000x64.size a + S5000x64.size a := by
  show i ∈ ((View.whole main_v25).slice (win0_5.rect t)).set ↔ _
  rw [View.set_slice_whole, Rect.mem_set_unit]
  exact Iff.rfl

/-- Node p lies in the block of point p / 5000, and every point writes its block back. -/
theorem blocks_cover (i : S50000x64.Idx) :
    ∃ t : Fin cfg0.N, (cfg0.win 5).flush t = true ∧ i ∈ ((cfg0.win 5).blk t).view.set := by
  have hi0 : (i 0).val < 50000 := (i 0).isLt
  have hi1 : (i 1).val < 64 := (i 1).isLt
  have hN : cfg0.N = 10 := N_0
  have hlt : (i 0).val / 5000 < cfg0.N := by rw [hN]; omega
  obtain ⟨-, -, -, -, -, -, -, -, -, -, e0, e1⟩ := block_positions ⟨(i 0).val / 5000, hlt⟩
  refine ⟨⟨(i 0).val / 5000, hlt⟩, flush0_5 _, ?_⟩
  rw [mem_block_iff]
  intro a
  match a with
  | ⟨0, _⟩ =>
    show win0_5.index ⟨(i 0).val / 5000, hlt⟩ (0 : Fin 2) * 5000 ≤ (i 0).val
      ∧ (i 0).val < win0_5.index ⟨(i 0).val / 5000, hlt⟩ (0 : Fin 2) * 5000 + 5000
    rw [e0]
    show (i 0).val / 5000 * 5000 ≤ (i 0).val ∧ (i 0).val < (i 0).val / 5000 * 5000 + 5000
    omega
  | ⟨1, _⟩ =>
    show win0_5.index ⟨(i 0).val / 5000, hlt⟩ (1 : Fin 2) * 64 ≤ (i 1).val
      ∧ (i 1).val < win0_5.index ⟨(i 0).val / 5000, hlt⟩ (1 : Fin 2) * 64 + 64
    rw [e1]
    omega

/-! ## The region's output array -/

/-- After the region has run from any entry contents, its output array is the rectified layer of the five arrays
    its input windows stage. -/
theorem arr0 (c : Dev nD) : (dat0 V c).arrAt 5 cfg0.N
    = Cert.Sage.linRelu (V c main_arg0) (V c main_v21) (V c main_v22) (V c main_v23) (V c main_v24) :=
  (dat0 V c).arrAt_eq_of_cover 5
    (Cert.Sage.linRelu (V c main_arg0) (V c main_v21) (V c main_v22) (V c main_v23) (V c main_v24))
    (fun t _ => written_block V c t) blocks_cover

end Cert.Sage.Region0

end
-- ==== Proof.Region1.lean ====
/-
  The second layer's tiled region, read as one function of whole arrays.

  The region walks ten points; at point t it holds rows 5000·t … 5000·t + 4999 of the node features X and of the
  aggregated features A, the two 64 × 64 halves Wa, Wb of the weight and the one-row bias B, all whole, and it stores
  one 5000 × 64 block: at (r, q)

        ∑ k < 64, x (r, k) · wa (k, q)  +  ∑ k < 64, a (r, k) · wb (k, q)  +  b (0, q),

  two exact matrix products into zero accumulators, added, plus the bias repeated down the rows (the changes of
  number format and the reshapes to the same shape are identities at the ideal values).  Row r of the block at point t
  is row 5000·t + r of the arrays, so the stored block is the block of rows 5000·t … of the layer function
  `Cert.Sage.lin X A Wa Wb B`; the ten blocks are disjoint and fill the 50000 rows (row p lies in the block of point
  p / 5000), hence the output array ends as `lin X A Wa Wb B`.
-/
import proofs.«127339_j24515673325905_1_alg».proof.Proof.Spec
import proofs.«127339_j24515673325905_1_alg».proof.Proof.LibPlainDot
import proofs.«127339_j24515673325905_1_alg».proof.Proof.Gen.KernelIdeal.Frame
import Idealize.ShloMosaic.Lib.ValueIdx
import Idealize.ShloMosaic.Lib.Pipeline.Value

set_option maxRecDepth 16384

noncomputable section

namespace Cert.Sage.Region1

open Idealize.ShloMosaic Idealize.ShloMosaic.TcCoe Idealize.SL.Sem Cert.KernelIdeal Cert.KernelIdeal.Gen
open Idealize.ShloMosaic.ValueIdx Idealize.ShloMosaic.Pipeline
open Cert.KernelIdeal.Facts₀ Cert.KernelIdeal.Facts
open scoped BigOperators

/-- The region's matrix products are plain ones: rows from the left operand, columns from the right, one contracted axis. -/
theorem plainDot : Cert.PlainDot.Plain dot_S5000x64_S64x64_S5000x64_1_0_0_1_n_n := ⟨rfl, rfl, rfl, rfl, rfl, rfl⟩

/-- One contracted axis, -/
theorem contr_rank : dot_S5000x64_S64x64_S5000x64_1_0_0_1_n_n.contr.rank = 1 := rfl

/-- of extent 64. -/
theorem contr_size : dot_S5000x64_S64x64_S5000x64_1_0_0_1_n_n.contr.size ⟨0, by rw [contr_rank]; omega⟩ = 64 := rfl

/-- The one-row bias repeated down 5000 rows: entry (r, q) is the bias's entry (0, q). -/
theorem bias_apply (x4 : Vec Ideal S1x64 .f32) (h : S1x64.Broadcasts S5000x64) (r : Fin 5000) (q : Fin 64) :
    broadcastTo S5000x64 x4 h (ix2 r q) = x4 (ix2 (0 : Fin 1) q) :=
  broadcastTo_apply x4 h (ix2 r q) (ix2 (0 : Fin 1) q) (fun a => by
    match a with
    | ⟨0, _⟩ => rfl
    | ⟨1, _⟩ => rfl)

/-- THE STORED BLOCK AT AN ENTRY: the row of the first block against the column of the upper half-weight, the row of
    the second against the column of the lower half-weight, and the bias of that column. -/
theorem pay_apply (x0 x1 : Vec Ideal S5000x64 .f32) (x2 x3 : Vec Ideal S64x64 .f32) (x4 : Vec Ideal S1x64 .f32)
    (r : Fin 5000) (q : Fin 64) :
    k1_pay1 x0 x1 x2 x3 x4 (ix2 r q)
      = (∑ k : Fin 64, x0 (ix2 r k) * x2 (ix2 k q)) + (∑ k : Fin 64, x1 (ix2 r k) * x3 (ix2 k q)) + x4 (ix2 (0 : Fin 1) q) := by
  unfold k1_pay1
  rw [addf_apply, addf_apply,
    Cert.PlainDot.matmul_zero_apply plainDot contr_rank contr_size,
    Cert.PlainDot.matmul_zero_apply plainDot contr_rank contr_size,
    bias_apply]
  simp only [truncf_apply, shapeCast_self]

variable (V : (c : Dev nD) → (b : Ref sig .tc) → Buf (Elt Ideal) ((c : Thread nD τ).loc b))

/-- The offsets of an access to a whole buffer are all zero. -/
theorem zero_offsets : (![0, 0] : Fin 2 → Nat) = fun _ => 0 := funext fun a => by fin_cases a <;> rfl

/-- Which block each window holds at point t: block (t, 0) of X, of A and of the output; block (0, 0), the whole array,
    of the two half-weights and of the bias.  Ten points: checked point by point. -/
theorem block_at : ∀ t : Fin cfg1.N,
      win1_0.index t (0 : Fin 2) = t.val ∧ win1_0.index t (1 : Fin 2) = 0
    ∧ win1_1.index t (0 : Fin 2) = t.val ∧ win1_1.index t (1 : Fin 2) = 0
    ∧ win1_2.index t (0 : Fin 2) = 0 ∧ win1_2.index t (1 : Fin 2) = 0
    ∧ win1_3.index t (0 : Fin 2) = 0 ∧ win1_3.index t (1 : Fin 2) = 0
    ∧ win1_4.index t (0 : Fin 2) = 0 ∧ win1_4.index t (1 : Fin 2) = 0
    ∧ win1_5.index t (0 : Fin 2) = t.val ∧ win1_5.index t (1 : Fin 2) = 0 :=
  (by decide +kernel : ∀ t : Fin grid1.N, _)

/-- There are ten points. -/
theorem grid_lt (t : Fin cfg1.N) : t.val < 10 := lt_of_lt_of_eq t.isLt N_1

/-- Row r of the block of X held at point t is row 5000·t + r of X. -/
theorem rowsX (c : Dev nD) (t : Fin cfg1.N) (r : Fin 5000) (k : Fin 64) (p : Fin 50000) (hp : p.val = 5000 * t.val + r.val) :
    iblk1 V c 0 t (ix2 r k) = V c main_v25 (ix2 p k) := by
  show V c main_v25 (((cfg1.win 0).blk t).view.emb (ix2 r k)) = V c main_v25 (ix2 p k)
  refine congrArg (V c main_v25) (funext fun a => Fin.ext ?_)
  obtain ⟨e0, e1, -⟩ := block_at t
  match a with
  | ⟨0, _⟩ => show win1_0.index t (0 : Fin 2) * 5000 + 1 * r.val = p.val; omega
  | ⟨1, _⟩ => show win1_0.index t (1 : Fin 2) * 64 + 1 * k.val = k.val; omega

/-- Row r of the block of A held at point t is row 5000·t + r of A. -/
theorem rowsA (c : Dev nD) (t : Fin cfg1.N) (r : Fin 5000) (k : Fin 64) (p : Fin 50000) (hp : p.val = 5000 * t.val + r.val) :
    iblk1 V c 1 t (ix2 r k) = V c main_v43 (ix2 p k) := by
  show V c main_v43 (((cfg1.win 1).blk t).view.emb (ix2 r k)) = V c main_v43 (ix2 p k)
  refine congrArg (V c main_v43) (funext fun a => Fin.ext ?_)
  obtain ⟨-, -, e0, e1, -⟩ := block_at t
  match a with
  | ⟨0, _⟩ => show win1_1.index t (0 : Fin 2) * 5000 + 1 * r.val = p.val; omega
  | ⟨1, _⟩ => show win1_1.index t (1 : Fin 2) * 64 + 1 * k.val = k.val; omega

/-- The upper half-weight is held whole at every point. -/
theorem wholeWa (c : Dev nD) (t : Fin cfg1.N) (k q : Fin 64) :
    iblk1 V c 2 t (ix2 k q) = V c main_v44 (ix2 k q) := by
  show V c main_v44 (((cfg1.win 2).blk t).view.emb (ix2 k q)) = V c main_v44 (ix2 k q)
  refine congrArg (V c main_v44) (funext fun a => Fin.ext ?_)
  obtain ⟨-, -, -, -, e0, e1, -⟩ := block_at t
  match a with
  | ⟨0, _⟩ => show win1_2.index t (0 : Fin 2) * 64 + 1 * k.val = k.val; omega
  | ⟨1, _⟩ => show win1_2.index t (1 : Fin 2) * 64 + 1 * q.val = q.val; omega

/-- The lower half-weight is held whole at every point. -/
theorem wholeWb (c : Dev nD) (t : Fin cfg1.N) (k q : Fin 64) :
    iblk1 V c 3 t (ix2 k q) = V c main_v45 (ix2 k q) := by
  show V c main_v45 (((cfg1.win 3).blk t).view.emb (ix2 k q)) = V c main_v45 (ix2 k q)
  refine congrArg (V c main_v45) (funext fun a => Fin.ext ?_)
  obtain ⟨-, -, -, -, -, -, e0, e1, -⟩ := block_at t
  match a with
  | ⟨0, _⟩ => show win1_3.index t (0 : Fin 2) * 64 + 1 * k.val = k.val; omega
  | ⟨1, _⟩ => show win1_3.index t (1 : Fin 2) * 64 + 1 * q.val = q.val; omega

/-- The bias row is held whole at every point. -/
theorem wholeB (c : Dev nD) (t : Fin cfg1.N) (q : Fin 64) :
    iblk1 V c 4 t (ix2 (0 : Fin 1) q) = V c main_v46 (ix2 (0 : Fin 1) q) := by
  show V c main_v46 (((cfg1.win 4).blk t).view.emb (ix2 (0 : Fin 1) q)) = V c main_v46 (ix2 (0 : Fin 1) q)
  refine congrArg (V c main_v46) (funext fun a => Fin.ext ?_)
  obtain ⟨-, -, -, -, -, -, -, -, e0, e1, -⟩ := block_at t
  match a with
  | ⟨0, _⟩ => show win1_4.index t (0 : Fin 2) * 1 + 1 * 0 = 0; omega
  | ⟨1, _⟩ => show win1_4.index t (1 : Fin 2) * 64 + 1 * q.val = q.val; omega

/-- ONE ENTRY, over any blocks that agree with the arrays where the entry reads them: if row r of the two row blocks
    is row p of X and of A, and the half-weights' column q and the bias's entry q are the arrays', then the stored
    entry (r, q) is the layer function at (p, q): the two sums and the bias term are equal term by term. -/
theorem point (X A : FVec Ideal S50000x64 .f32) (Wa Wb : FVec Ideal S64x64 .f32) (B : FVec Ideal S1x64 .f32)
    (x0 x1 : Vec Ideal S5000x64 .f32) (x2 x3 : Vec Ideal S64x64 .f32) (x4 : Vec Ideal S1x64 .f32)
    (p : Fin 50000) (r : Fin 5000) (q : Fin 64)
    (h0 : ∀ k : Fin 64, x0 (ix2 r k) = X (ix2 p k)) (h1 : ∀ k : Fin 64, x1 (ix2 r k) = A (ix2 p k))
    (h2 : ∀ k : Fin 64, x2 (ix2 k q) = Wa (ix2 k q)) (h3 : ∀ k : Fin 64, x3 (ix2 k q) = Wb (ix2 k q))
    (h4 : x4 (ix2 (0 : Fin 1) q) = B (ix2 (0 : Fin 1) q)) :
    k1_pay1 x0 x1 x2 x3 x4 (ix2 r q) = Cert.Sage.lin X A Wa Wb B (ix2 p q) := by
  rw [pay_apply, Cert.Sage.lin_apply]
  unfold Cert.Sage.linAt
  simp only [h0, h1, h2, h3, h4]

/-- WHAT POINT t WRITES BACK is the block of rows 5000·t … 5000·t + 4999 of the layer function of the five arrays
    as the region finds them: the block's entry (r, q) sits at (5000·t + r, q) of the output array, and there the
    entry lemma applies with the block reads above. -/
theorem flushed_eq (c : Dev nD) (t : Fin cfg1.N) :
    (dat1 V c).flushed 5 t = ((cfg1.win 5).blk t).view.read (Elt Ideal)
      (Cert.Sage.lin (V c main_v25) (V c main_v43) (V c main_v44) (V c main_v45) (V c main_v46)) := by
  show (cfg1.win 5).cut (grid1.coords t) ((dat1 V c).after 5 t) = _
  rw [after1_5]
  unfold out1_5
  rw [View.canon_unit_zero zero_offsets]
  simp only [View.ld_unit_zero (S := S5000x64) zero_offsets, View.ld_unit_zero (S := S64x64) zero_offsets, View.ld_unit_zero (S := S1x64) zero_offsets]
  funext j
  obtain ⟨r, q, rfl⟩ : ∃ (r : Fin 5000) (q : Fin 64), j = ix2 r q := ⟨j 0, j 1, eq_ix2 j⟩
  have ht := grid_lt t
  have hemb : ((cfg1.win 5).blk t).view.emb (ix2 r q) = ix2 (⟨5000 * t.val + r.val, by omega⟩ : Fin 50000) q := by
    funext a; apply Fin.ext
    obtain ⟨-, -, -, -, -, -, -, -, -, -, e0, e1⟩ := block_at t
    match a with
    | ⟨0, _⟩ => show win1_5.index t (0 : Fin 2) * 5000 + 1 * r.val = 5000 * t.val + r.val; omega
    | ⟨1, _⟩ => show win1_5.index t (1 : Fin 2) * 64 + 1 * q.val = q.val; omega
  show k1_pay1 (iblk1 V c 0 t) (iblk1 V c 1 t) (iblk1 V c 2 t) (iblk1 V c 3 t) (iblk1 V c 4 t) (ix2 r q)
    = Cert.Sage.lin (V c main_v25) (V c main_v43) (V c main_v44) (V c main_v45) (V c main_v46) (((cfg1.win 5).blk t).view.emb (ix2 r q))
  rw [hemb]
  exact point (V c main_v25) (V c main_v43) (V c main_v44) (V c main_v45) (V c main_v46)
    (iblk1 V c 0 t) (iblk1 V c 1 t) (iblk1 V c 2 t) (iblk1 V c 3 t) (iblk1 V c 4 t) _ r q
    (fun k => rowsX V c t r k _ rfl) (fun k => rowsA V c t r k _ rfl)
    (fun k => wholeWa V c t k q) (fun k => wholeWb V c t k q) (wholeB V c t q)

/-- An index of the output array is in point t's block iff each coordinate is in the block's range on its axis. -/
theorem mem_block (t : Fin cfg1.N) (i : S50000x64.Idx) :
    i ∈ ((cfg1.win 5).blk t).view.set ↔ ∀ a : Fin 2, win1_5.index t a * S5000x64.size a ≤ (i a).val ∧ (i a).val < win1_5.index t a * S5000x64.size a + S5000x64.size a := by
  show i ∈ ((View.whole main_v47).slice (win1_5.rect t)).set ↔ _
  rw [View.set_slice_whole, Rect.mem_set_unit]
  exact Iff.rfl

/-- The ten blocks fill the array: row p lies in the block of point p / 5000, and every column in its one column
    block. -/
theorem covered (i : S50000x64.Idx) :
    ∃ t : Fin cfg1.N, (cfg1.win 5).flush t = true ∧ i ∈ ((cfg1.win 5).blk t).view.set := by
  have hi0 : (i 0).val < 50000 := (i 0).isLt
  have hi1 : (i 1).val < 64 := (i 1).isLt
  have hlt : (i 0).val / 5000 < cfg1.N := lt_of_lt_of_eq (by omega : (i 0).val / 5000 < 10) N_1.symm
  refine ⟨⟨(i 0).val / 5000, hlt⟩, flush1_5 _, ?_⟩
  rw [mem_block]
  obtain ⟨-, -, -, -, -, -, -, -, -, -, e0, e1⟩ := block_at ⟨(i 0).val / 5000, hlt⟩
  have e0' : win1_5.index ⟨(i 0).val / 5000, hlt⟩ (0 : Fin 2) = (i 0).val / 5000 := e0
  intro a
  match a with
  | ⟨0, _⟩ =>
    show win1_5.index ⟨(i 0).val / 5000, hlt⟩ (0 : Fin 2) * 5000 ≤ (i 0).val
      ∧ (i 0).val < win1_5.index ⟨(i 0).val / 5000, hlt⟩ (0 : Fin 2) * 5000 + 5000
    omega
  | ⟨1, _⟩ =>
    show win1_5.index ⟨(i 0).val / 5000, hlt⟩ (1 : Fin 2) * 64 ≤ (i 1).val
      ∧ (i 1).val < win1_5.index ⟨(i 0).val / 5000, hlt⟩ (1 : Fin 2) * 64 + 64
    omega

/-- THE OUTPUT ARRAY after the region, from any entry contents: the layer function (no rectifier) of the node
    features, the aggregated features, the two half-weights and the bias row it was given. -/
theorem arr1 (c : Dev nD) : (dat1 V c).arrAt 5 cfg1.N
    = Cert.Sage.lin (V c main_v25) (V c main_v43) (V c main_v44) (V c main_v45) (V c main_v46) :=
  (dat1 V c).arrAt_eq_of_cover 5
    (Cert.Sage.lin (V c main_v25) (V c main_v43) (V c main_v44) (V c main_v45) (V c main_v46))
    (fun t _ => flushed_eq V c t) covered

end Cert.Sage.Region1
end
-- ==== Proof.KernelValue.lean ====
/-
  The tiled program's result is the network function of the launch arrays.

  The first region turns (features, their aggregation, the first weight's halves, the first bias) into the rectified
  first layer; the host stretch between the regions aggregates that array over the same edges; the second region turns
  (first layer, its aggregation, the second weight's halves, the second bias) into the second layer.  Each region's
  output array is its layer function of whatever its input windows stage; the host stretches say what that is.
-/
import proofs.«127339_j24515673325905_1_alg».proof.Proof.Spec
import proofs.«127339_j24515673325905_1_alg».proof.Proof.HostReads
import proofs.«127339_j24515673325905_1_alg».proof.Proof.Region0
import proofs.«127339_j24515673325905_1_alg».proof.Proof.Region1
import proofs.«127339_j24515673325905_1_alg».proof.Proof.KernelRun

set_option maxRecDepth 16384

noncomputable section

namespace Cert.Sage.Kernel

open Idealize.ShloMosaic Idealize.ShloMosaic.TcCoe Idealize.SL.Sem
open Cert.KernelIdeal Cert.KernelIdeal.Gen

variable (m : (ℓ : Loc nD τ sig) → Buf (Elt Ideal) ℓ) (ρ : Dev nD → PrngReg)

/-- After the first region its output array holds the rectified first layer of the launch arrays. -/
theorem hidden (c : Dev nD) : V2 m ρ c main_v25
    = linRelu (m ((c.tc : Thread nD τ).loc main_arg0)) (agg (F := Ideal) (m ((c.tc : Thread nD τ).loc main_arg0)) (m ((c.tc : Thread nD τ).loc main_arg1)))
        (wTop (F := Ideal) (m ((c.tc : Thread nD τ).loc main_arg2))) (wBot (F := Ideal) (m ((c.tc : Thread nD τ).loc main_arg2))) (bRow (F := Ideal) (m ((c.tc : Thread nD τ).loc main_arg3))) := by
  refine (W2_arr m ρ c 5).trans ?_
  rw [Region0.arr0 (V1 m ρ) c, Host.V1_arg0, Host.V1_v21, Host.V1_v22, Host.V1_v23, Host.V1_v24]

/-- At the last boundary the result array holds the network's value. -/
theorem result (c : Dev nD) : W4 m ρ c (Proc.devRef .tc main_v47) = net (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) := by
  refine (W4_arr m ρ c 5).trans ?_
  rw [Region1.arr1 (V3 m ρ) c, Host.V3_v25, Host.V3_v43, Host.V3_v44, Host.V3_v45, Host.V3_v46, hidden]
  rfl

/-- Every weakly fair execution of the tiled program ends with the result array at the network's value and the
    arguments as launched. -/
theorem run : θ_run defs (onTc (τ := τ) (main (F := Ideal))) ⟨m, fun _ => 0, ρ⟩ (fun r => ∀ c : Dev nD,
      r.2.mem ((c.tc : Thread nD τ).loc main_v47) = net (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)) :=
  (θ_run defs _ _).mono (fun r h c => ⟨(h c).1.trans (result m ρ c), (h c).2⟩) (GenP.run_result m ρ)

end Cert.Sage.Kernel

end
-- ==== Proof.RefSide.lean ====
/-
  The reference program's result is the two-layer network of the specification.

  One layer of the reference joins every node's own row with its aggregated row into one row of 128 entries and
  multiplies it with the whole 128-row weight.  A sum over the 128 joined columns is the sum over the first 64
  columns (the node's own features against the weight's upper half) plus the sum over the last 64 (the aggregated
  features against the lower half): addition on the extended reals is commutative and associative, so nothing needs
  finiteness.  The bias reaches every row through two broadcasts, which read the same entry as the one-row array of
  the specification.  The aggregation is the same chain of operations in both readings and is carried as one function.
-/
import proofs.«127339_j24515673325905_1_alg».proof.Proof.Spec
import proofs.«127339_j24515673325905_1_alg».proof.Proof.LibPlainDot
import proofs.«127339_j24515673325905_1_alg».proof.Proof.Gen.ReferenceIdeal.Run
import Idealize.ShloMosaic.Lib.Pipeline.Value
import Idealize.ShloMosaic.Lib.ValueIdx
import Idealize.ShloMosaic.PureOps.Ideal.Laws
import Mathlib.Algebra.BigOperators.Fin

noncomputable section

namespace Cert.Sage.Ref

open Idealize.ShloMosaic Idealize.ShloMosaic.TcCoe Idealize.SL.Sem Idealize.ShloMosaic.ValueIdx
open Cert.ReferenceIdeal Cert.ReferenceIdeal.Facts₀ Cert.ReferenceIdeal.Facts
open scoped BigOperators

/-! ## The aggregation, as the reference spells it -/

section Agg
variable {F : FTy → Type} [FloatOps F]

/-- The reference's mean aggregation: the same operations on the same arrays as the specification's. -/
def ragg (feat : (⟨S50000x64, .f32⟩ : BufTy).Contents (Elt F)) (e : (⟨S2x800000, .i32⟩ : BufTy).Contents (Elt F)) :
    (⟨S50000x64, .f32⟩ : BufTy).Contents (Elt F) :=
  Host.divf (Host.scatterAdd scatter_S50000x64_S800000x1_S800000x64_1_0_0_1 (broadcastInDim S50000x64 ![] bcast_S_S50000x64 (constant S_ .f32 0x00000000#32)) (broadcastInDim S800000x1 ![0] bcast_S800000_S800000x1_0 (shapeCast _ (extractStridedSlice S1x800000 ![1, 0] e slices_S2x800000_S1x800000_1_0) shapeCasts_S1x800000_S800000)) (Host.gather gather_S50000x64_S800000x1_S800000x64_1_0_n_n_0_1_164 feat (broadcastInDim S800000x1 ![0] bcast_S800000_S800000x1_0 (select (cmpi .slt (shapeCast _ (extractStridedSlice S1x800000 ![0, 0] e slices_S2x800000_S1x800000_0_0) shapeCasts_S1x800000_S800000) (broadcastInDim S800000 ![] bcast_S_S800000 (constantI S_ 32 0#32))) (addi (shapeCast _ (extractStridedSlice S1x800000 ![0, 0] e slices_S2x800000_S1x800000_0_0) shapeCasts_S1x800000_S800000) (broadcastInDim S800000 ![] bcast_S_S800000 (constantI S_ 32 50000#32))) (shapeCast _ (extractStridedSlice S1x800000 ![0, 0] e slices_S2x800000_S1x800000_0_0) shapeCasts_S1x800000_S800000))))) (broadcastInDim S50000x64 ![0, 1] bcast_S50000x1_S50000x64_0_1 (maximumf (Host.scatterAdd scatter_S50000x1_S800000x1_S800000x1_1_0_0_1 (broadcastInDim S50000x1 ![] bcast_S_S50000x1 (constant S_ .f32 0x00000000#32)) (broadcastInDim S800000x1 ![0] bcast_S800000_S800000x1_0 (shapeCast _ (extractStridedSlice S1x800000 ![1, 0] e slices_S2x800000_S1x800000_1_0) shapeCasts_S1x800000_S800000)) (broadcastInDim S800000x1 ![] bcast_S_S800000x1 (constant S_ .f32 0x3F800000#32))) (broadcastInDim S50000x1 ![] bcast_S_S50000x1 (constant S_ .f32 0x3F800000#32))))

set_option maxHeartbeats 400000 in
theorem ragg_eq (feat : (⟨S50000x64, .f32⟩ : BufTy).Contents (Elt F)) (e : (⟨S2x800000, .i32⟩ : BufTy).Contents (Elt F)) :
    ragg feat e = Cert.Sage.agg feat e := rfl

end Agg

/-! ## One layer -/

/-- The reference's layer before any rectifier: the joined rows against the whole weight, plus the broadcast bias. -/
def refLin (X A : FVec Ideal S50000x64 .f32) (W : FVec Ideal S128x64 .f32) (b : FVec Ideal S64 .f32) :
    FVec Ideal S50000x64 .f32 :=
  addf (Host.dotGeneral dot_S50000x128_S128x64_S50000x64_1_0_0_1_n_n none (concatenate S50000x128 1 [⟨S50000x64, X⟩, ⟨S50000x64, A⟩] concatenates_S50000x64_S50000x64_S50000x128_d1) W) (broadcastInDim S50000x64 ![0, 1] bcast_S1x64_S50000x64_0_1 (broadcastInDim S1x64 ![1] bcast_S64_S1x64_1 b))

/-- The product's dimension numbers are those of a plain matrix product. -/
theorem plain_dot : Cert.PlainDot.Plain dot_S50000x128_S128x64_S50000x64_1_0_0_1_n_n := ⟨rfl, rfl, rfl, rfl, rfl, rfl⟩

/-- A joined row at a column below 64 is the node's own row there. -/
theorem join_left (X A : FVec Ideal S50000x64 .f32) (p : Fin 50000) (k : Fin 64) :
    concatenate S50000x128 1 [⟨S50000x64, X⟩, ⟨S50000x64, A⟩] concatenates_S50000x64_S50000x64_S50000x128_d1
      (ix2 p (Fin.castAdd 64 k)) = X (ix2 p k) :=
  concatenate_pair_apply_left 1 X A concatenates_S50000x64_S50000x64_S50000x128_d1 (ix2 p (Fin.castAdd 64 k)) rfl (ix2 p k)
    (fun b => match b with | ⟨0, _⟩ => rfl | ⟨1, _⟩ => rfl)

/-- A joined row at column 64 + k is the aggregated row at column k. -/
theorem join_right (X A : FVec Ideal S50000x64 .f32) (p : Fin 50000) (k : Fin 64) :
    concatenate S50000x128 1 [⟨S50000x64, X⟩, ⟨S50000x64, A⟩] concatenates_S50000x64_S50000x64_S50000x128_d1
      (ix2 p (Fin.natAdd 64 k)) = A (ix2 p k) :=
  concatenate_pair_apply_right 1 X A concatenates_S50000x64_S50000x64_S50000x128_d1 (ix2 p (Fin.natAdd 64 k)) rfl rfl (ix2 p k)
    (fun b => match b with | ⟨0, _⟩ => fun _ => rfl | ⟨1, _⟩ => fun h => absurd rfl h)
    (by show k.val + 64 = 64 + k.val; omega)

/-- The weight's upper half at (k, q) is the weight at (k, q). -/
theorem wTop_apply (W : FVec Ideal S128x64 .f32) (k q : Fin 64) :
    Cert.Sage.wTop (F := Ideal) W (ix2 k q) = W (ix2 (Fin.castAdd 64 k) q) := by
  unfold Cert.Sage.wTop
  exact extractStridedSlice_apply _ W _ (ix2 k q) (ix2 (Fin.castAdd 64 k) q)
    (fun a => match a with
      | ⟨0, _⟩ => by show k.val = 0 + k.val; omega
      | ⟨1, _⟩ => by show q.val = 0 + q.val; omega)

/-- The weight's lower half at (k, q) is the weight at (64 + k, q). -/
theorem wBot_apply (W : FVec Ideal S128x64 .f32) (k q : Fin 64) :
    Cert.Sage.wBot (F := Ideal) W (ix2 k q) = W (ix2 (Fin.natAdd 64 k) q) := by
  unfold Cert.Sage.wBot
  exact extractStridedSlice_apply _ W _ (ix2 k q) (ix2 (Fin.natAdd 64 k) q)
    (fun a => match a with
      | ⟨0, _⟩ => by show 64 + k.val = 64 + k.val; rfl
      | ⟨1, _⟩ => by show q.val = 0 + q.val; omega)

/-- The bias broadcast to every row, at (p, q), is the bias at q. -/
theorem bias_apply (b : FVec Ideal S64 .f32) (p : Fin 50000) (q : Fin 64) :
    broadcastInDim S50000x64 ![0, 1] bcast_S1x64_S50000x64_0_1 (broadcastInDim S1x64 ![1] bcast_S64_S1x64_1 b) (ix2 p q)
      = b (ix1 q) := by
  refine (broadcastInDim_apply _ bcast_S1x64_S50000x64_0_1 _ (ix2 p q) (ix2 (0 : Fin 1) q) (fun a => match a with
    | ⟨0, _⟩ => by show 0 = if (1 : Nat) = 1 then 0 else p.val; rw [if_pos rfl]
    | ⟨1, _⟩ => by show q.val = if (64 : Nat) = 1 then 0 else q.val; rw [if_neg (by decide)])).trans ?_
  exact broadcastInDim_apply _ bcast_S64_S1x64_1 b (ix2 (0 : Fin 1) q) (ix1 q) (fun a => match a with
    | ⟨0, _⟩ => by show q.val = if (64 : Nat) = 1 then 0 else q.val; rw [if_neg (by decide)])

/-- The bias as a one-row array, at (0, q), is the bias at q. -/
theorem bRow_apply (b : FVec Ideal S64 .f32) (q : Fin 64) :
    Cert.Sage.bRow (F := Ideal) b (ix2 (0 : Fin 1) q) = b (ix1 q) := by
  unfold Cert.Sage.bRow
  refine shapeCast_apply b _ (ix2 (0 : Fin 1) q) (ix1 q) ?_
  rw [Shape.rowMajor_val_one, Shape.rowMajor_val_two]
  show q.val = 0 * 64 + q.val
  omega

/-- The reference's layer is the specification's: the sum over the 128 joined columns splits at the joint. -/
theorem refLin_eq (X A : FVec Ideal S50000x64 .f32) (W : FVec Ideal S128x64 .f32) (b : FVec Ideal S64 .f32) :
    refLin X A W b = Cert.Sage.lin X A (Cert.Sage.wTop (F := Ideal) W) (Cert.Sage.wBot (F := Ideal) W) (Cert.Sage.bRow (F := Ideal) b) := by
  funext i
  obtain ⟨p, q, rfl⟩ : ∃ p q, i = ix2 p q := ⟨i 0, i 1, eq_ix2 i⟩
  rw [Cert.Sage.lin_apply]
  unfold refLin Cert.Sage.linAt
  rw [addf_apply, Cert.PlainDot.dotGeneral_apply plain_dot rfl rfl, bias_apply, bRow_apply]
  congr 1
  refine (Fin.sum_univ_add (a := 64) (b := 64) (fun κ : Fin 128 =>
    concatenate S50000x128 1 [⟨S50000x64, X⟩, ⟨S50000x64, A⟩] concatenates_S50000x64_S50000x64_S50000x128_d1 (ix2 p κ) * W (ix2 κ q))).trans ?_
  congr 1
  · exact Finset.sum_congr rfl fun k _ => by rw [join_left, wTop_apply]
  · exact Finset.sum_congr rfl fun k _ => by rw [join_right, wBot_apply]

/-! ## The rectifier -/

/-- The reference's rectifier: the maximum with the zero constant broadcast to every entry. -/
def refRelu (v : FVec Ideal S50000x64 .f32) : FVec Ideal S50000x64 .f32 :=
  maximumf v (broadcastInDim S50000x64 ![] bcast_S_S50000x64 (constant S_ .f32 0x00000000#32))

/-- The broadcast zero constant is zero at every entry. -/
theorem zeros_apply (i : S50000x64.Idx) :
    broadcastInDim S50000x64 ![] bcast_S_S50000x64 (constant (F := Ideal) S_ .f32 0x00000000#32) i = 0 :=
  (broadcastInDim_apply _ bcast_S_S50000x64 (constant (F := Ideal) S_ .f32 0x00000000#32) i ix0 (fun a => a.elim0)).trans
    ((constant_apply _ _).trans Ideal.ofBits_zero_f32)

theorem refRelu_apply (v : FVec Ideal S50000x64 .f32) (i : S50000x64.Idx) : refRelu v i = max (v i) 0 := by
  unfold refRelu
  rw [maximumf_apply, zeros_apply]

/-- The reference's first layer, rectified, is the specification's. -/
theorem refRelu_refLin (X A : FVec Ideal S50000x64 .f32) (W : FVec Ideal S128x64 .f32) (b : FVec Ideal S64 .f32) :
    refRelu (refLin X A W b)
      = Cert.Sage.linRelu X A (Cert.Sage.wTop (F := Ideal) W) (Cert.Sage.wBot (F := Ideal) W) (Cert.Sage.bRow (F := Ideal) b) := by
  funext i
  rw [refRelu_apply, refLin_eq]
  rfl

/-! ## The whole program -/

/-- The reference's result, written over the layer, the rectifier and the aggregation: its printed term is, operation
    by operation, these definitions unfolded. -/
theorem res_shape (m : (ℓ : Loc nD τ sig) → Buf (Elt Ideal) ℓ) (c : Dev nD) :
    Cert.ReferenceIdeal.Value.res_main_v50 (F := Ideal) m c
    = refLin
        (refRelu (refLin (m ((c.tc : Thread nD τ).loc main_arg0))
          (ragg (F := Ideal) (m ((c.tc : Thread nD τ).loc main_arg0)) (m ((c.tc : Thread nD τ).loc main_arg1)))
          (m ((c.tc : Thread nD τ).loc main_arg2)) (m ((c.tc : Thread nD τ).loc main_arg3))))
        (ragg (F := Ideal)
          (refRelu (refLin (m ((c.tc : Thread nD τ).loc main_arg0))
            (ragg (F := Ideal) (m ((c.tc : Thread nD τ).loc main_arg0)) (m ((c.tc : Thread nD τ).loc main_arg1)))
            (m ((c.tc : Thread nD τ).loc main_arg2)) (m ((c.tc : Thread nD τ).loc main_arg3))))
          (m ((c.tc : Thread nD τ).loc main_arg1)))
        (m ((c.tc : Thread nD τ).loc main_arg4)) (m ((c.tc : Thread nD τ).loc main_arg5)) := by
  unfold Cert.ReferenceIdeal.Value.res_main_v50
  rfl

/-- The reference's result is the two-layer network of the specification. -/
theorem ref_result (m : (ℓ : Loc nD τ sig) → Buf (Elt Ideal) ℓ) (c : Dev nD) :
    Cert.ReferenceIdeal.Value.res_main_v50 (F := Ideal) m c
    = Cert.Sage.net (m ((c.tc : Thread nD τ).loc main_arg0)) (m ((c.tc : Thread nD τ).loc main_arg1))
        (m ((c.tc : Thread nD τ).loc main_arg2)) (m ((c.tc : Thread nD τ).loc main_arg3))
        (m ((c.tc : Thread nD τ).loc main_arg4)) (m ((c.tc : Thread nD τ).loc main_arg5)) := by
  rw [res_shape, refRelu_refLin, refLin_eq, ragg_eq, ragg_eq]
  rfl

end Cert.Sage.Ref

end
-- ==== Proof.lean ====
/-
  The certificate of the two-layer mean-aggregating graph convolution: a tiled program (per layer a host gather /
  scatter-add aggregation, then one tiled region computing X·Wa + A·Wb + b over blocks of 5000 nodes, the first layer
  rectified) against the reference concat[X ‖ A]·W + b.

  At the ideal values both end with the result array at ONE function of the launch arrays, `Cert.Sage.net`
  (Proof/Spec.lean).  The tiled side: each region's output array is its layer function of what its input windows
  stage (Proof/Region0.lean, Proof/Region1.lean), the host stretches say what that is (Proof/HostReads.lean), and the
  launch names the result array at the last boundary (Proof/KernelRun.lean); composed in Proof/KernelValue.lean.  The
  reference side (Proof/RefSide.lean): the aggregation is the same chain of operations on the same arrays and is
  carried unopened; a row of the joined array [X ‖ A] against the 128-row weight is the sum over its first 64 columns
  plus the sum over its last 64, which is the tiled program's two products — the one law of the certificate, needing
  only that addition on the extended reals is commutative and associative, so the precondition is never opened.
  The ideal pass rewrote nothing, so the idealization claim is trivial; the three frames are the generated ones (the
  reference's is its generated run with the result dropped).
-/
import proofs.«127339_j24515673325905_1_alg».proof.Defs
import proofs.«127339_j24515673325905_1_alg».proof.Proof.Gen.Kernel
import proofs.«127339_j24515673325905_1_alg».proof.Proof.Gen.Kernel.Frame
import proofs.«127339_j24515673325905_1_alg».proof.Proof.Gen.KernelIdeal
import proofs.«127339_j24515673325905_1_alg».proof.Proof.Gen.KernelIdeal.Frame
import proofs.«127339_j24515673325905_1_alg».proof.Proof.Gen.ReferenceIdeal
import proofs.«127339_j24515673325905_1_alg».proof.Proof.Gen.ReferenceIdeal.Run
import proofs.«127339_j24515673325905_1_alg».proof.Proof.Gen.Pre_finite_inputs
import proofs.«127339_j24515673325905_1_alg».proof.Proof.KernelValue
import proofs.«127339_j24515673325905_1_alg».proof.Proof.RefSide
import Idealize.ShloMosaic.Adequacy
import Idealize.ShloMosaic.Init

noncomputable section

namespace Cert.Proof

open Idealize.ShloMosaic Idealize.SL.Sem

theorem frame_k : Cert.frame_Kernel := fun m ρ _ => Cert.Kernel.Gen.frame m ρ

theorem frame_ki : Cert.frame_KernelIdeal := fun m ρ _ => Cert.KernelIdeal.Gen.frame m ρ

theorem frame_ri : Cert.frame_ReferenceIdeal := fun m ρ _ =>
  (θ_run Cert.ReferenceIdeal.defs _ _).mono (fun _ h c => (h c).2) (Cert.ReferenceIdeal.Value.run (F := Ideal) m ρ)

/-- Both programs, from memories that agree on the arguments, end with the result array at the network's value of
    the arguments. -/
theorem algebraic : Cert.algebraic_KernelIdeal_ReferenceIdeal := by
  intro m ρ m' ρ' _ hagree
  refine ⟨fun c => Cert.Sage.net (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)), Cert.Sage.Kernel.run m ρ, ?_⟩
  refine (θ_run Cert.ReferenceIdeal.defs _ _).mono (fun _ h c => ⟨(h c).1.trans ?_, (h c).2⟩)
    (Cert.ReferenceIdeal.Value.run (F := Ideal) m' ρ')
  rw [Cert.Sage.Ref.ref_result, (hagree c).1, (hagree c).2.1, (hagree c).2.2.1, (hagree c).2.2.2.1, (hagree c).2.2.2.2.1,
    (hagree c).2.2.2.2.2]

theorem claim : Cert.Claim := ⟨Cert.Kernel.Gen.facts, Cert.KernelIdeal.Gen.facts, Cert.ReferenceIdeal.Gen.facts, Cert.Pre_finite_inputs.Gen.facts,
  frame_k, frame_ki, frame_ri, trivial, algebraic⟩

end Cert.Proof

end
